-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  main_v8
-- ==== Kernel.lean ====
abbrev S8192x1024 : Shape := ⟨2, ![8192, 1024]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩
abbrev S1024x512 : Shape := ⟨2, ![1024, 512]⟩

abbrev nBuf : Space → Nat
  | .hbm => 4
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v18 : BitVec 1 := Scalar.cmpi .eq arg1 c15_i32
  let v19 : BitVec 32 := Scalar.extui v18
  let c0_i32_11 : BitVec 32 := 0#32
  let v20 : BitVec 1 := Scalar.cmpi .ne v19 c0_i32_11
  v20

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S8192x1024.size a
  hwx1_2 : ∀ i : grid1.Coords, EltTy.bits .f32 = 32 ∨ (Rect.block (s := S8192x1024) S512x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .f32 = 32 ∨ (Rect.block (s := S8192x1024) S1024x1024.size (cc1_transform_3 i) (hinb1_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x1024 : Shape := ⟨2, ![8192, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S1024x8192, .f32⟩
  | .hbm, ⟨13, _⟩ => ⟨S8192x8192, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x1024 : S_.BroadcastsInDim S8192x1024 (![] : Fin 0 → Fin S8192x1024.rank)
  dot_S8192x1024_S1024x8192_S8192x8192_1_0_0_1_n_n_wf : DotDims.WF S8192x1024 S1024x8192 S8192x8192 [1] [0] [0] [1] [] []
  dot_S8192x8192_S8192x1024_S8192x1024_1_0_0_1_n_n_wf : DotDims.WF S8192x8192 S8192x1024 S8192x1024 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def dot_S8192x8192_S8192x1024_S8192x1024_1_0_0_1_n_n : DotDims S8192x8192 S8192x1024 S8192x1024 where
  lhsContracting := [1]
  rhsContracting := [0]
  lhsNonContracting := [0]
  rhsNonContracting := [1]
  lhsBatch := []
  rhsBatch := []
  wf := dot_S8192x8192_S8192x1024_S8192x1024_1_0_0_1_n_n_wf

class Facts : Prop extends Facts₀ where

variable [Facts]
-- ==== Proof.KernelFrame.Norm.lean ====
/-
  The first kernel region (the row-normalizing kernel on the grid of 8 row blocks) as a pipeline with proof data.
  At grid point t the body reads the 1024 × 1024 block t of the input matrix and overwrites the output window's
  staging buffer with the block's rows, each divided by its clamped length (the payload `k0_pay1` of the block):
  the output buffer after the body is that payload whatever it held before, the input block is left in place.
  Stated at a parameter `V`: the contents of the core's buffers when the region is entered.
-/
import proofs.«174637_j670014898407_1_alg».proof.Proof.Gen.Kernel.Launch
import proofs.«174637_j670014898407_1_alg».proof.Proof.Gen.Kernel.Skeleton
import proofs.«174637_j670014898407_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the input's block at every point, for any proof data over `V`
    whose body leaves that block in place: the window is fetched at each point, never cut, never idle. -/
theorem before0_in {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole 1024 × 1024 block: the one rectangle the body loads and stores through. -/
abbrev whole0 : Rect S1024x1024 := Rect.unit (s := S1024x1024) ![0, 0] S1024x1024.size inb_S1024x1024_S1024x1024_0_0

/-- The output buffer after the body: the one store, of the normalized block, covering the buffer. -/
def out0_1 (x0 : Vec F S1024x1024 .f32) : Vec F S1024x1024 .bf16 :=
  View.canon [⟨whole0, k0_pay1 (View.ld x0 whole0)⟩]

/-- The one store covers the buffer. -/
theorem cover0_1 (p0 : Vec F S1024x1024 .bf16) (y : S1024x1024.Idx) :
    ∃ pc ∈ ([⟨whole0, p0⟩] : List (View.Piece (Elt F) S1024x1024 .bf16)), y ∈ pc.1.set :=
  View.cover_of_tiled [⟨whole0, p0⟩] S1024x1024.size (by rfl) y

/-! ## The body's triple -/

set_option maxHeartbeats 1000000 in
/-- On whole staging memrefs, the input's at contents `x0` and the output's at anything, the body runs to the
    continuation with the input's buffer as it was and the output's at `out0_1 x0`. -/
theorem sound_kernel0 (c : Dev nD) (E : Set ℕ) (i : grid0.Coords) (arg1 : Memref sig .tc .vmem S1024x1024 .f32) (harg1 : arg1.IsWhole)
    (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The first pipeline's proof data on core `c`: the arrays as the region finds them; after the body the input's
    buffer at its block, the output's at the normalized block; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_in V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KernelFrame.AttnShared.lean ====
/-
  The second kernel region (the fused similarity-and-mix kernel on the grid 8 × 16): what its three case runs share.
  The two branch conditions of the body in closed form over the 128 grid points (a group is 16 consecutive points:
  the first of a group resets the accumulator, the last writes the output block), where the output window is idle,
  the memrefs the body is called on, and the region invariant spelled buffer by buffer.
-/
import proofs.«174637_j670014898407_1_alg».proof.Proof.Gen.Kernel.Launch
import proofs.«174637_j670014898407_1_alg».proof.Proof.Gen.Kernel.Skeleton
import proofs.«174637_j670014898407_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, over the grid -/

/-- The first conditional's test as the body computes it from the grid coordinates: the inner coordinate is zero. -/
abbrev cond1_0 (i : grid1.Coords) : Prop :=
  (Scalar.cmpi .ne (Scalar.extui (Scalar.cmpi .eq (BitVec.ofNat 32 (i 1).val) 0#32)) 0#32) = 1#1

/-- It holds exactly at the first point of each group of sixteen. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's test: the inner coordinate is fifteen. -/
abbrev cond1_1 (i : grid1.Coords) : Prop := k1_cond2 i = 1#1

/-- It holds exactly at the last point of each group of sixteen. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The three input windows are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- Away from a group's last point the output window is idle: the body stores nothing into it there, -/
theorem idleAt1_3 : ∀ t : Fin cfg1.N, ¬cond1_1 (grid1.coords t) → cfg1.idle 3 (grid1.coords t) = true := by decide +kernel
/-- and the pipeline does not write its block back there. -/
theorem noFlush1_3 : ∀ t : Fin cfg1.N, ¬cond1_1 (grid1.coords t) → (cfg1.win 3).flush t = false := by decide +kernel
/-- At a group's last point the output window is live. -/
theorem liveAt1_3 : ∀ t : Fin cfg1.N, cond1_1 (grid1.coords t) → cfg1.idle 3 (grid1.coords t) = false := by decide +kernel

/-! ## The memrefs the body is called on -/

/-- Each window's current staging memref at point `t`, and that it is a whole buffer. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The accumulator: a whole scoped buffer of the kernel's own, carried from one grid point to the next. -/
abbrev scM1_0 : Memref sig .tc .vmem S1024x1024 .f32 := Memref.whole cc1_scratch0
/-- The accumulator as a view: what it holds is stated through it. -/
abbrev VS1_0 : View sig .tc .vmem S1024x1024 .f32 := scM1_0.view
/-- One staging buffer of the output window, through which the output block's contents are stated
    (which of the two buffers is immaterial: a covering list of writes reads back alike through any view). -/
abbrev VO1_3 : View sig .tc .vmem S1024x1024 .f32 := (Memref.whole cc1_stg3_0 : Memref sig .tc .vmem S1024x1024 .f32).view

/-! ## The region invariant, buffer by buffer -/

/-- The first region's four staging buffers, which this region never touches: each whole, at some contents. -/
def otherStg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The class invariant of this region: the other region's staging buffers at some contents, the accumulator owned
    at some contents, the generator register at some state. -/
theorem PhiA1_eq (c : Dev nD) :
    (Pipeline.ΦA spec1 c : sProp 𝕄)
      = iprop(otherStg (F := F) c ∗ (∃ d, owns (c : Thread nD τ) scM1_0 fullShare d) ∗ (∃ r, prngReg c r)) := by
  unfold Pipeline.ΦA otherStg; rw [scopedRest1_eq]; simp only [scM1_0, owns_whole]
  refine Idealize.SL.BI.Entails.antisymm ?_ ?_
  · show (_ : sProp 𝕄) ⊢ _
    iintro ⟨⟨Ha, Hb, Hc, Hd, He⟩, Hg⟩
    isplitl [Ha Hb Hc Hd]
    · isplitl [Ha]; · iexact Ha
      isplitl [Hb]; · iexact Hb
      isplitl [Hc]; · iexact Hc
      iexact Hd
    isplitl [He]; · iexact He
    iexact Hg
  · show (_ : sProp 𝕄) ⊢ _
    iintro ⟨⟨Ha, Hb, Hc, Hd⟩, He, Hg⟩
    isplitr [Hg]
    · isplitl [Ha]; · iexact Ha
      isplitl [Hb]; · iexact Hb
      isplitl [Hc]; · iexact Hc
      isplitl [Hd]; · iexact Hd
      iexact He
    iexact Hg

end Cert.Kernel.Hand

end
-- ==== Proof.KernelFrame.AttnRunA.lean ====
/-
  The second kernel region, case A: the first point of a group of sixteen. The body resets the accumulator to zero,
  adds this point's product to it, and leaves the output block alone.
-/
import proofs.«174637_j670014898407_1_alg».proof.Proof.KernelFrame.AttnShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE A (the first conditional taken, the second not). On whole memrefs — the three inputs at their blocks
    `x0 x1 x2`, the output's buffer at any contents `xi3`, the accumulator at anything — the body runs to the
    continuation with the inputs and the output's buffer as they were and the accumulator written by the pieces
    `LS0` (last store first: the sum over the zero reset): the pieces are the witness the symbolic run finds.
    The first component lists the stores into the output's buffer: none. -/
noncomputable def kernelRun1_A (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i)
    (x0 : Vec F S1024x1024 .bf16) (x1 : Vec F S512x1024 .bf16) (x2 : Vec F S512x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KernelFrame.AttnRunB.lean ====
/-
  The second kernel region, case B: a point strictly inside a group of sixteen. The body adds this point's product
  to the accumulator the point before left, and leaves the output block alone.
-/
import proofs.«174637_j670014898407_1_alg».proof.Proof.KernelFrame.AttnRunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE B (neither conditional taken). On whole memrefs — the three inputs at their blocks `x0 x1 x2`, the output's
    buffer at any contents `xi3`, the accumulator at `xs0`, what the point before left — the body runs to the
    continuation with the inputs and the output's buffer as they were and the accumulator written by the pieces
    `LS0` (one store: the sum): the pieces are the witness the symbolic run finds. No store into the output's buffer. -/
noncomputable def kernelRun1_B (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i)
    (x0 : Vec F S1024x1024 .bf16) (x1 : Vec F S512x1024 .bf16) (x2 : Vec F S512x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.KernelFrame.AttnRunC.lean ====
/-
  The second kernel region, case C: the last point of a group of sixteen. The body adds this point's product to the
  accumulator, then stores the logistic of the finished sum into the output block.
-/
import proofs.«174637_j670014898407_1_alg».proof.Proof.KernelFrame.AttnRunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- CASE C (the first conditional not taken, the second taken). On whole memrefs — the three inputs at their blocks
    `x0 x1 x2`, the output's buffer at anything, the accumulator at `xs0`, what the point before left — the body runs
    to the continuation with the inputs as they were, the output's buffer written by the pieces `L3` (one store: the
    logistic of the finished accumulator) and the accumulator by `LS0` (one store: the sum): the pieces are the
    witness the symbolic run finds. -/
noncomputable def kernelRun1_C (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i)
    (x0 : Vec F S1024x1024 .bf16) (x1 : Vec F S512x1024 .bf16) (x2 : Vec F S512x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.KernelFrame.Attn.lean ====
/-
  The second kernel region (the fused similarity-and-mix kernel on the grid 8 × 16) as a pipeline with proof data:
  what its output block and its accumulator hold after each grid point, and the body's triple at every point.
  A group is sixteen consecutive points: its first point resets the accumulator and adds the first product, the
  inner points add theirs, the last adds its own and stores the logistic of the finished sum into the output block,
  which the pipeline writes back there and nowhere else.
-/
import proofs.«174637_j670014898407_1_alg».proof.Proof.KernelFrame.AttnRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves in the output's buffer and in the accumulator -/

/-- Case A stores nothing into the output's buffer: the empty list of pieces read back over unspecified contents,
    a term nothing consults (the window is idle there: neither written back nor read at the next point). -/
def out1_A_3 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i) (x0 : Vec F S1024x1024 .bf16) (x1 : Vec F S512x1024 .bf16) (x2 : Vec F S512x1024 .f32) : Vec F S1024x1024 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator tile it: every index is written. -/
theorem scover1_A_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i) (x0 : Vec F S1024x1024 .bf16) (x1 : Vec F S512x1024 .bf16) (x2 : Vec F S512x1024 .f32) (y : S1024x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x1024.size (by sl_kernel_rfl) y

/-- What case A leaves in the accumulator: its pieces read back (over contents that, being covered, do not matter). -/
def sout1_A_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i) (x0 : Vec F S1024x1024 .bf16) (x1 : Vec F S512x1024 .bf16) (x2 : Vec F S512x1024 .f32) : Vec F S1024x1024 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output's buffer either: again a term nothing consults. -/
def out1_B_3 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i) (x0 : Vec F S1024x1024 .bf16) (x1 : Vec F S512x1024 .bf16) (x2 : Vec F S512x1024 .f32) (xs0 : Vec F S1024x1024 .f32) : Vec F S1024x1024 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's one store into the accumulator tiles it. -/
theorem scover1_B_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i) (x0 : Vec F S1024x1024 .bf16) (x1 : Vec F S512x1024 .bf16) (x2 : Vec F S512x1024 .f32) (xs0 : Vec F S1024x1024 .f32) (y : S1024x1024.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x1024.size (by sl_kernel_rfl) y

/-- What case B leaves in the accumulator, from what the point before left there (`xs0`). -/
def sout1_B_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i) (x0 : Vec F S1024x1024 .bf16) (x1 : Vec F S512x1024 .bf16) (x2 : Vec F S512x1024 .f32) (xs0 : Vec F S1024x1024 .f32) : Vec F S1024x1024 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output's buffer tiles it. -/
theorem cover1_C_3 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16) (x2 : Vec F S512x1024 .f32) (xs0 : Vec F S1024x1024 .f32) (y : S1024x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x1024.size (by sl_kernel_rfl) y

/-- What case C leaves in the output's buffer: the block the pipeline then writes back. -/
def out1_C_3 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16) (x2 : Vec F S512x1024 .f32) (xs0 : Vec F S1024x1024 .f32) : Vec F S1024x1024 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's one store into the accumulator tiles it. -/
theorem scover1_C_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16) (x2 : Vec F S512x1024 .f32) (xs0 : Vec F S1024x1024 .f32) (y : S1024x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x1024.size (by sl_kernel_rfl) y

/-- What case C leaves in the accumulator. -/
def sout1_C_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16) (x2 : Vec F S512x1024 .f32) (xs0 : Vec F S1024x1024 .f32) : Vec F S1024x1024 .f32 :=
  VS1_0.read (Elt F) (VS1_0.writes (Elt F) VS1_0.junk (kernelRun1_C c i arg2 harg2 arg3 harg3 arg4 harg4 arg5 harg5 arg6 harg6 hc0 hc1 x0 x1 x2 xs0).2.1)

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point — also at the fifteen points of a group where it is
    not fetched: the block index has not moved since the group's first point, and the body leaves the block in place.
    For any proof data on the entry contents `V` whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's buffer holds its block at every point (it is fetched at each). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's buffer holds its block at every point (it is fetched at each). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation, point by point -/

/-- One point of the accumulation: from what the point before left in the accumulator (`prev`, ignored at a group's
    first point, which resets it), the pair (the output's buffer, the accumulator) after the body at `t`, by the
    position of `t` in its group of sixteen. -/
def stepAt1 (c : Dev nD) (t : Fin cfg1.N) (prev : Vec F S1024x1024 .f32) : Vec F S1024x1024 .f32 × Vec F S1024x1024 .f32 :=
  if h0 : t.val % 16 = 0 then
    (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t),
     sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t))
  else if h1 : t.val % 16 = 15 then
    (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev,
     sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev)
  else
    (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) prev,
     sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) prev)

/-- After grid position `n`: (the output window's staging buffer, the accumulator scratch). -/
def outsAt1 (c : Dev nD) : (n : ℕ) → n < cfg1.N → Vec F S1024x1024 .f32 × Vec F S1024x1024 .f32
  | 0, hn => stepAt1 V c ⟨0, hn⟩ (VS1_0.read (Elt F) VS1_0.junk)
  | n + 1, hn => stepAt1 V c ⟨n + 1, hn⟩ (outsAt1 c n (Nat.lt_of_succ_lt hn)).2

/-- The step at a group's first point: the reset case's contents, whatever came before. -/
theorem stepAt1_A (c : Dev nD) (t : Fin cfg1.N) (prev : Vec F S1024x1024 .f32) (h0 : t.val % 16 = 0) (h1 : ¬t.val % 16 = 15) :
    stepAt1 V c t prev
      = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
         sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  unfold stepAt1; rw [dif_pos h0]

/-- The step at a point inside a group: the accumulating case's contents over `prev`. -/
theorem stepAt1_B (c : Dev nD) (t : Fin cfg1.N) (prev : Vec F S1024x1024 .f32) (h0 : ¬t.val % 16 = 0) (h1 : ¬t.val % 16 = 15) :
    stepAt1 V c t prev
      = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) prev,
         sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) prev) := by
  unfold stepAt1; rw [dif_neg h0, dif_neg h1]

/-- The step at a group's last point: the writing case's contents over `prev`. -/
theorem stepAt1_C (c : Dev nD) (t : Fin cfg1.N) (prev : Vec F S1024x1024 .f32) (h0 : ¬t.val % 16 = 0) (h1 : t.val % 16 = 15) :
    stepAt1 V c t prev
      = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev,
         sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev) := by
  unfold stepAt1; rw [dif_neg h0, dif_pos h1]

/-- After any point but the very first, `outsAt1` is one step over what the point before left. -/
theorem outsAt1_step (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨n, hn⟩ := t
  cases n with
  | zero => exact absurd rfl hz
  | succ n => rfl

/-- `outsAt1` at a group's first point: the reset case's contents. -/
theorem outsAt1_A (c : Dev nD) (t : Fin cfg1.N) (h0 : t.val % 16 = 0) (h1 : ¬t.val % 16 = 15) :
    outsAt1 V c t.val t.isLt
      = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
         sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact stepAt1_A V c ⟨0, hn⟩ _ h0 h1
  | succ n => exact stepAt1_A V c ⟨n + 1, hn⟩ _ h0 h1

/-- `outsAt1` at a point inside a group: the accumulating case's contents, over what the point before left. -/
theorem outsAt1_B (c : Dev nD) (t : Fin cfg1.N) (h0 : ¬t.val % 16 = 0) (h1 : ¬t.val % 16 = 15) :
    outsAt1 V c t.val t.isLt
      = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
         sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  rw [outsAt1_step V c t (fun e => h0 (by rw [e]))]
  exact stepAt1_B V c t _ h0 h1

/-- `outsAt1` at a group's last point: the writing case's contents, over what the point before left. -/
theorem outsAt1_C (c : Dev nD) (t : Fin cfg1.N) (h0 : ¬t.val % 16 = 0) (h1 : t.val % 16 = 15) :
    outsAt1 V c t.val t.isLt
      = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
         sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  rw [outsAt1_step V c t (fun e => h0 (by rw [e]))]
  exact stepAt1_C V c t _ h0 h1

/-! ## The region invariant -/

/-- The region invariant before position `n`. Before the first point the class's own (the accumulator at anything);
    afterwards the other region's staging buffers at some contents, the accumulator at what the point before left in
    it, and the generator register at some state. -/
def PhiS1 (c : Dev nD) : (n : ℕ) → n ≤ cfg1.N → sProp 𝕄
  | 0, _ => Pipeline.ΦA spec1 c
  | n + 1, hn => iprop(otherStg (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherStg (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(otherStg (F := F) c ∗ owns (c : Thread nD τ) scM1_0 fullShare ((outsAt1 V c (n - 1) (by omega)).2) ∗ (∃ r, prngReg c r)) := by
  cases n with
  | zero => exact absurd rfl hz
  | succ n => rfl

/-! ## The proof data -/

/-- The proof data of the second pipeline: the two windows on the normalized array each hold half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input window's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- An input window's post is its buffer at its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]

set_option maxHeartbeats 4800000 in
/-- The body at any point. The inputs' buffers hold their blocks; the position of the point in its group says which
    case runs; the invariant hands the body the accumulator at what the point before left (at anything before the very
    first point) and takes it back at this point's contents; the other region's buffers, the generator register and the
    core's tallies ride along untouched; the output's buffer comes back as found unless the point is a group's last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 16 = 0
  · have h1 : ¬t.val % 16 = 15 := by omega
    have hnc1 : ¬cond1_1 (grid1.coords t) := fun h => h1 ((hcond1_1 t).mp h)
    rw [Dat.leavesExact_idle (dat1 V c) 3 t (idleAt1_3 t hnc1) (noFlush1_3 t hnc1)]
    rw [outsAt1_A V c t h0 h1]
    unfold sout1_A_0; (try dsimp only)
    by_cases hz : t.val = 0
    · rw [PhiS1_castSucc V c t, PhiS1_zero V c _ _ hz, PhiA1_eq]
      iintro ⟨⟨Hr, HS0, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hnc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hr, HS0, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hnc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hnc0 : ¬cond1_0 (grid1.coords t) := fun h => h0 ((hcond1_0 t).mp h)
    rw [PhiS1_castSucc V c t, PhiS1_pos V c _ _ hz]
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      iintro ⟨⟨Hr, HS0, Hg⟩, Ho, ⟨%d0, H0⟩, ⟨%d1, H1⟩, ⟨%d2, H2⟩, ⟨%d3, H3⟩⟩
      iapply ((kernelRun1_C c (grid1.coords t) _ _ _ _ _ _ _ _ _ _ hnc0 ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · have hnc1 : ¬cond1_1 (grid1.coords t) := fun h => h1 ((hcond1_1 t).mp h)
      rw [Dat.leavesExact_idle (dat1 V c) 3 t (idleAt1_3 t hnc1) (noFlush1_3 t hnc1)]
      rw [outsAt1_B V c t h0 h1]
      unfold sout1_B_0; (try dsimp only)
      iintro ⟨⟨Hr, HS0, Hg⟩, Ho, ⟨%d0, H0⟩, ⟨%d1, H1⟩, ⟨%d2, H2⟩, ⟨%d3, H3⟩⟩
      iapply ((kernelRun1_B c (grid1.coords t) _ _ _ _ _ _ _ _ _ _ hnc0 hnc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After any point but the first the invariant gives the class's back: the accumulator's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨Hr, HS0, Hg⟩
  isplitl [Hr]; · iexact Hr
  isplitl [HS0]; · iexists _; iexact HS0
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

end Cert.Kernel.Hand

end
-- ==== Proof.KernelFrame.AttnShare.lean ====
/-
  The second pipeline stages the normalized array through two of its four windows. The array is one buffer, held
  whole at the full share before the pipeline is entered; each of the two windows holds it at half of that share
  while the pipeline runs, and the two halves are put together again when it is left. The other two windows' arrays
  (the input and the result) are buffers of their own and keep the full share throughout.
-/
import proofs.«174637_j670014898407_1_alg».proof.Proof.KernelFrame.Attn

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the four windows' arrays: three of them, the normalized array counted once. -/
theorem arrBufs1_eq (c : Dev nD) (W : (b : Ref sig .tc) → Buf (Elt F) ((c : Thread nD τ).loc b)) :
    (Pipeline.arrBufs spec1 c W : sProp 𝕄)
      = iprop((((c : Thread nD τ).loc main_v0) ↦{fullShare} W main_v0) ∗ (((c : Thread nD τ).loc main_arg0) ↦{fullShare} W main_arg0)
          ∗ (((c : Thread nD τ).loc main_v1) ↦{fullShare} W main_v1)) := by
  unfold Pipeline.arrBufs
  rw [bigSep_eq_bigSepL_of_eq [main_v0, main_arg0, main_v1] (by decide) (by decide)]
  rfl

/-- The pipeline's arrays window by window: every array is a whole buffer; the two windows on the normalized
    array hold the left and the right half of its share, the other two the full share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg0) ↦{fullShare} G 2) ∗ (((c : Thread nD τ).loc main_v1) ↦{fullShare} G 3)) := by
  have hwhole : (dat1 V c).arrays G
      = bigSep Finset.univ fun w : Fin cfg1.W => ((cfg1.win w).arr.view.loc (c.tc : Thread nD τ) ↦{(dat1 V c).share w} G w : sProp 𝕄) := by
    unfold Dat.arrays
    exact bigSep_congr fun w _ => by rw [(arr_whole1 w).set_eq_univ]
  rw [hwhole, bigSep_W1]
  rfl

/-- At entry: the full share of the normalized array is halved between the two windows that stage it. -/
theorem split1 (c : Dev nD) : (Pipeline.arrBufs spec1 c (V c) : sProp 𝕄) ⊢ (dat1 V c).arrays (fun w => (dat1 V c).arrAt w 0) := by
  rw [arrBufs1_eq, arrays1_eq]
  iintro ⟨Hn, Hx, Ho⟩
  ihave Hn := (pointsTo_share (PosShare.mem_left_op_right fullShare)).1 $$ Hn
  icases Hn with ⟨Hl, Hr⟩
  isplitl [Hl]; · iexact Hl
  isplitl [Hr]; · iexact Hr
  isplitl [Hx]; · iexact Hx
  iexact Ho

/-- At exit: the two halves, both still at the contents the array had at entry, are joined; the result array is at
    what the write-backs left, every other buffer as it was. -/
theorem join1 (c : Dev nD) (V' : (b : Ref sig .tc) → Buf (Elt F) ((c : Thread nD τ).loc b)) (h3 : (dat1 V c).arrAt 3 cfg1.N = V' main_v1)
    (hrest : ∀ b : Ref sig .tc, b ≠ main_v1 → V' b = V c b) :
    (dat1 V c).arrays (fun w => (dat1 V c).arrAt w cfg1.N) ⊢ (Pipeline.arrBufs spec1 c V' : sProp 𝕄) := by
  -- an input window's array is never written: it stays at the entry contents, which the exit contents repeat
  have e0 : (dat1 V c).arrAt 0 cfg1.N = V' main_v0 :=
    ((dat1 V c).arrAt_in 0 rfl cfg1.N).trans (hrest main_v0 (by decide)).symm
  have e1 : (dat1 V c).arrAt 1 cfg1.N = V' main_v0 :=
    ((dat1 V c).arrAt_in 1 rfl cfg1.N).trans (hrest main_v0 (by decide)).symm
  have e2 : (dat1 V c).arrAt 2 cfg1.N = V' main_arg0 :=
    ((dat1 V c).arrAt_in 2 rfl cfg1.N).trans (hrest main_arg0 (by decide)).symm
  rw [arrBufs1_eq, arrays1_eq, e0, e1, e2, h3]
  iintro ⟨Hl, Hr, Hx, Ho⟩
  ihave Hn := (pointsTo_share (PosShare.mem_left_op_right fullShare)).2 $$ [Hl Hr]
  · isplitl [Hl] <;> iassumption
  isplitl [Hn]; · iexact Hn
  isplitl [Hx]; · iexact Hx
  iexact Ho

end Cert.Kernel.Hand

end
-- ==== Proof.KernelFrame.Segments.lean ====
/-
  The whole program as two kernel regions in sequence, and its run.
  Between the regions each core holds every unscoped buffer whole: at launch the memory's contents; after the first
  region the normalized array at what that region's write-backs leave; after the second the result array likewise.
  The second region stages ONE array (the normalized one) through two of its windows, so at its entry that array's
  ownership is halved between them, and at its exit the halves, still at the entry contents, are joined again.
  The run's post reads every unscoped buffer off the last of these valuations: the arguments are as launched, and
  the result array is what the second region's proof data computes.
-/
import proofs.«174637_j670014898407_1_alg».proof.Proof.KernelFrame.Norm
import proofs.«174637_j670014898407_1_alg».proof.Proof.KernelFrame.Attn
import proofs.«174637_j670014898407_1_alg».proof.Proof.KernelFrame.AttnShare

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at the three boundaries -/

/-- At launch. -/
abbrev W0 (c : Dev nD) : Valuation τ sig (Elt F) := fun b => m (c, b)
/-- The same at the TensorCore's references: what the first region's proof data take. -/
abbrev E0 (c : Dev nD) (b : Ref sig .tc) : Buf (Elt F) ((c : Thread nD τ).loc b) := W0 m c b

/-- What the first region leaves in the normalized array. -/
abbrev mid (c : Dev nD) : Buf (Elt F) ((c : Thread nD τ).loc main_v0) := (dat0 (E0 m) c).arrAt 1 cfg0.N

/-- After the first region: the normalized array at what the region leaves, every other buffer as launched. -/
def W1 (c : Dev nD) : Valuation τ sig (Elt F) := Function.update (W0 m c) main_v0 (mid m c)
abbrev E1 (c : Dev nD) (b : Ref sig .tc) : Buf (Elt F) ((c : Thread nD τ).loc b) := W1 m c b

/-- What the second region leaves in the result array. -/
abbrev fin (c : Dev nD) : Buf (Elt F) ((c : Thread nD τ).loc main_v1) := (dat1 (E1 m) c).arrAt 3 cfg1.N

/-- After the second region: the result array at what the region leaves, every other buffer as before it. -/
def W2 (c : Dev nD) : Valuation τ sig (Elt F) := Function.update (W1 m c) main_v1 (fin m c)
abbrev E2 (c : Dev nD) (b : Ref sig .tc) : Buf (Elt F) ((c : Thread nD τ).loc b) := W2 m c b

theorem W1_v0 (c : Dev nD) : W1 m c main_v0 = mid m c := by
  unfold W1; exact Function.update_self ..
theorem W1_of_ne (c : Dev nD) (r : Ref sig .tc) (h : r ≠ main_v0) : W1 m c r = W0 m c r := by
  unfold W1; exact Function.update_of_ne (StableHlo.devRef_ne_of_ne h) ..
theorem W2_v1 (c : Dev nD) : W2 m c main_v1 = fin m c := by
  unfold W2; exact Function.update_self ..
theorem W2_of_ne (c : Dev nD) (r : Ref sig .tc) (h : r ≠ main_v1) : W2 m c r = W1 m c r := by
  unfold W2; exact Function.update_of_ne (StableHlo.devRef_ne_of_ne h) ..

/-! ## The proof data family and what rides beside the buffers -/

/-- No pipeline has a prefetched table. -/
abbrev admH : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) admH p) c
  | ⟨0, _⟩ => fun c => dat0 (E0 m) c
  | ⟨1, _⟩ => fun c => dat1 (E1 m) c

abbrev 𝒱H : Variants := Variants.none
/-- No core owes another anything: no level is assigned. -/
abbrev LH : GSem nD τ sig → Finset Unit := fun _ => ∅
abbrev lvH : GSem nD τ sig → Unit → ℕ := fun _ _ => 0

/-- Beside the buffers through both regions: the generator register at some state, and the core owing nothing. -/
abbrev side (c : Dev nD) : sProp 𝕄 := iprop((∃ r, prngReg c r) ∗ ∃ W, owes (c : Thread nD τ) (0 : CellTallies nD τ sig Unit) W)

/-- The thread state at a boundary: every unscoped buffer at the boundary's contents, and `side`. -/
abbrev stateAt (W : Dev nD → Valuation τ sig (Elt F)) (c : Dev nD) : sProp 𝕄 :=
  iprop(StableHlo.held (c : Thread nD τ) (Pipeline.ucRefs τ sig) (W c) ∗ side (F := F) c)

/-! ## The first region as a segment -/

theorem exit0_arr (c : Dev nD) (w : Fin cfg0.W) : (dat0 (E0 m) c).arrAt w cfg0.N = E1 m c (Pipeline.arrRef spec0 w) := by
  match w with
  | ⟨0, _⟩ =>
    exact ((dat0 (E0 m) c).arrAt_in 0 rfl _).trans ((A_eq0 (E0 m) c 0).trans (W1_of_ne m c main_arg0 (by decide)).symm)
  | ⟨1, _⟩ => exact (W1_v0 m c).symm

theorem exit0_rest (c : Dev nD) : ∀ b, b ∉ Finset.univ.image (Pipeline.arrRef spec0) → E1 m c b = E0 m c b := fun b hb =>
  W1_of_ne m c b fun e => hb (Finset.mem_image.mpr ⟨1, Finset.mem_univ _, e.symm⟩)

set_option backward.isDefEq.respectTransparency.types false in
/-- The first region: entered with every unscoped buffer as launched, left with the normalized array written. Its two
    arrays are distinct, each held whole; the generator register goes into the class invariant and comes back. -/
def reg0 : RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ LH lvH 0 fun _ _ => rfl
  pre c := iprop(StableHlo.held (c : Thread nD τ) (Pipeline.ucRefs τ sig) (W0 m c) ∗ side (F := F) c)
  post c := iprop(StableHlo.held (c : Thread nD τ) (Pipeline.ucRefs τ sig) (W1 m c) ∗ side (F := F) c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

/-- At the second region's entry the unscoped buffers are the three buffers behind its windows' arrays and the rest. -/
theorem held_split1 (c : Dev nD) (W : Valuation τ sig (Elt F)) :
    (StableHlo.held (c : Thread nD τ) (Pipeline.ucRefs τ sig) W : sProp 𝕄)
      = iprop(Pipeline.arrBufs spec1 c (fun b => W b) ∗ Pipeline.unscopedRest spec1 c (fun b => W b)) :=
  (Pipeline.unscopedBufs_held (Ix := Unit) (Name := ℕ) (U := UR sig nD τ) (Lvl := ℕ) c W).symm.trans
    (Pipeline.unscopedBufs_split₀ (cfgs := cfgs) (p := (1 : Fin 2)) winFacts₀1.arr_unscoped c (fun b => W b))

/-- The second region writes the result array only: the buffers that are no array of its windows are untouched. -/
theorem rest1_keep (c : Dev nD) :
    (Pipeline.unscopedRest (Ix := Unit) (Name := ℕ) (U := UR sig nD τ) (Lvl := ℕ) spec1 c (E1 m c) : sProp 𝕄)
      = Pipeline.unscopedRest spec1 c (E2 m c) := by
  unfold Pipeline.unscopedRest
  exact bigSep_congr fun b hb => by
    rw [show E2 m c b = E1 m c b from W2_of_ne m c b fun e =>
      (Finset.mem_sdiff.mp hb).2 (Finset.mem_image.mpr ⟨3, Finset.mem_univ _, e.symm⟩)]

set_option backward.isDefEq.respectTransparency.types false in
/-- The second region: entered with the normalized array written, left with the result array written. The normalized
    array's ownership is halved between the two windows that stage it and joined again at the exit. -/
def reg1 : RegionSeg (pcfgs (F := F)) admH (pdats m) () defs₀ 𝒱H LH lvH 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ LH lvH 1 fun _ _ => rfl
  pre c := iprop(StableHlo.held (c : Thread nD τ) (Pipeline.ucRefs τ sig) (W1 m c) ∗ side (F := F) c)
  post c := iprop(iprop(StableHlo.held (c : Thread nD τ) (Pipeline.ucRefs τ sig) (W2 m c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    iintro ⟨⟨Hub, Hp, HO⟩, -, -⟩
    ihave H := (Entails.of_eq (held_split1 c (W1 m c))) $$ Hub
    icases H with ⟨Hab, Hrest⟩
    ihave Ha := (split1 (E1 m) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E1 m) c).Φ 0 from rfl]
    iintro ⟨Hp, -, Hr⟩
    iapply (hin1 (E1 m) c)
    unfold Pipeline.ΦA
    isplitl [Hr]; · iexact Hr
    iexact Hp
  hout c := by
    rw [Pipeline.ownSems0_none]
    refine (hout1 (E1 m) c).trans ?_
    unfold Pipeline.ΦA
    iintro ⟨Hr, Hp⟩
    isplitl [Hp]; · iexact Hp
    isplitr; · iempintro
    iexact Hr
  hexit c := by
    have hj : (pdats m 1 c).arrays (fun w => (pdats m 1 c).arrAt w cfg1.N) ⊢ (Pipeline.arrBufs spec1 c (E2 m c) : sProp 𝕄) :=
      join1 (E1 m) c (E2 m c) (W2_v1 m c).symm (fun b hb => W2_of_ne m c b hb)
    iintro ⟨Ha, HO, HY, Hrest⟩
    ihave Hab := hj $$ Ha
    ihave Hrest' := (Entails.of_eq (rest1_keep m c)) $$ Hrest
    imodintro
    isplitl [Hab Hrest' HY]
    · isplitl [Hab Hrest']
      · iapply (Entails.of_eq (held_split1 c (W2 m c)).symm); isplitl [Hab] <;> iassumption
      iexact HY
    unfold Pipeline.Dat.owesAt Pipeline.owesWithin
    icases HO with ⟨%W, -, HO⟩; iexists W; iexact HO

/-! ## The run -/

/-- The program's two segments. -/
abbrev segsH : List (Seg (pcfgs (F := F)) admH (pdats m) () defs₀ 𝒱H LH lvH) := [.region (reg0 m), .region (reg1 m)]

/-- An unscoped reference of the TensorCore is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates without a fault,
    with the result array at what the second region's proof data computes and both arguments as launched. -/
theorem run_all : θ_run defs (onTc (τ := τ) (main (F := F))) ⟨m, fun _ => 0, ρ⟩ (fun r => ∀ c : Dev nD,
      r.2.mem ((c.tc : Thread nD τ).loc main_v1) = fin m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) admH (pdats m) () cellOf_inj emb₁ defs₀ 𝒱H LH lvH m ρ main (segsH m)
    (fun c Q => by rw [main_segs admH (pdats m) () 𝒱H LH lvH (reg0 m) (reg1 m) c])
    (by simp only [segsH, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ side (F := F) c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_ucH main_v1 (by decide))).trans (W2_v1 m c),
       (h c _ (mem_ucH main_arg0 (by decide))).trans (((W2_of_ne m c main_arg0 (by decide)).trans (W1_of_ne m c main_arg0 (by decide)))),
       (h c _ (mem_ucH main_arg1 (by decide))).trans (((W2_of_ne m c main_arg1 (by decide)).trans (W1_of_ne m c main_arg1 (by decide))))⟩)

/-- THE FRAME: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_all m ρ)

end Cert.Kernel.Hand

end
-- ==== Proof.KernelIdealFrame.Norm.lean ====
/-
  The first kernel region (the row-normalizing kernel on the grid of 8 row blocks) as a pipeline with proof data.
  At grid point t the body reads the 1024 × 1024 block t of the input matrix and overwrites the output window's
  staging buffer with the block's rows, each divided by its clamped length (the payload `k0_pay1` of the block):
  the output buffer after the body is that payload whatever it held before, the input block is left in place.
  Stated at a parameter `V`: the contents of the core's buffers when the region is entered.
-/
import proofs.«174637_j670014898407_1_alg».proof.Proof.Gen.KernelIdeal.Launch
import proofs.«174637_j670014898407_1_alg».proof.Proof.Gen.KernelIdeal.Skeleton
import proofs.«174637_j670014898407_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the input's block at every point, for any proof data over `V`
    whose body leaves that block in place: the window is fetched at each point, never cut, never idle. -/
theorem before0_in {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- The whole 1024 × 1024 block: the one rectangle the body loads and stores through. -/
abbrev whole0 : Rect S1024x1024 := Rect.unit (s := S1024x1024) ![0, 0] S1024x1024.size inb_S1024x1024_S1024x1024_0_0

/-- The output buffer after the body: the one store, of the normalized block, covering the buffer. -/
def out0_1 (x0 : Vec F S1024x1024 .f32) : Vec F S1024x1024 .bf16 :=
  View.canon [⟨whole0, k0_pay1 (View.ld x0 whole0)⟩]

/-- The one store covers the buffer. -/
theorem cover0_1 (p0 : Vec F S1024x1024 .bf16) (y : S1024x1024.Idx) :
    ∃ pc ∈ ([⟨whole0, p0⟩] : List (View.Piece (Elt F) S1024x1024 .bf16)), y ∈ pc.1.set :=
  View.cover_of_tiled [⟨whole0, p0⟩] S1024x1024.size (by rfl) y

/-! ## The body's triple -/

set_option maxHeartbeats 1000000 in
/-- On whole staging memrefs, the input's at contents `x0` and the output's at anything, the body runs to the
    continuation with the input's buffer as it was and the output's at `out0_1 x0`. -/
theorem sound_kernel0 (c : Dev nD) (E : Set ℕ) (i : grid0.Coords) (arg1 : Memref sig .tc .vmem S1024x1024 .f32) (harg1 : arg1.IsWhole)
    (arg2 : Memref sig .tc .vmem S1024x1024 .bf16) (harg2 : arg2.IsWhole)
    (x0 : Vec F S1024x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__norm_kernel i arg1 harg1 arg2 harg2) K := by
  simp only [cc0__norm_kernel_eq_skeleton]; unfold cc0__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The proof data -/

/-- The first pipeline's proof data on core `c`: the arrays as the region finds them; after the body the input's
    buffer at its block, the output's at the normalized block; the invariant the scoped rest and the generator
    register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_in V (dat0 V c) (A_eq0 V c 0) (after0_0 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, the body's triple applies; the invariant and what the
    core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdealFrame.AttnShared.lean ====
/-
  The second kernel region (the fused similarity-and-mix kernel on the grid 8 × 16): what its three case runs share.
  The two branch conditions of the body in closed form over the 128 grid points (a group is 16 consecutive points:
  the first of a group resets the accumulator, the last writes the output block), where the output window is idle,
  the memrefs the body is called on, and the region invariant spelled buffer by buffer.
-/
import proofs.«174637_j670014898407_1_alg».proof.Proof.Gen.KernelIdeal.Launch
import proofs.«174637_j670014898407_1_alg».proof.Proof.Gen.KernelIdeal.Skeleton
import proofs.«174637_j670014898407_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, over the grid -/

/-- The first conditional's test as the body computes it from the grid coordinates: the inner coordinate is zero. -/
abbrev cond1_0 (i : grid1.Coords) : Prop :=
  (Scalar.cmpi .ne (Scalar.extui (Scalar.cmpi .eq (BitVec.ofNat 32 (i 1).val) 0#32)) 0#32) = 1#1

/-- It holds exactly at the first point of each group of sixteen. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's test: the inner coordinate is fifteen. -/
abbrev cond1_1 (i : grid1.Coords) : Prop := k1_cond2 i = 1#1

/-- It holds exactly at the last point of each group of sixteen. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

/-- The three input windows are live at every point. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

/-- Away from a group's last point the output window is idle: the body stores nothing into it there, -/
theorem idleAt1_3 : ∀ t : Fin cfg1.N, ¬cond1_1 (grid1.coords t) → cfg1.idle 3 (grid1.coords t) = true := by decide +kernel
/-- and the pipeline does not write its block back there. -/
theorem noFlush1_3 : ∀ t : Fin cfg1.N, ¬cond1_1 (grid1.coords t) → (cfg1.win 3).flush t = false := by decide +kernel
/-- At a group's last point the output window is live. -/
theorem liveAt1_3 : ∀ t : Fin cfg1.N, cond1_1 (grid1.coords t) → cfg1.idle 3 (grid1.coords t) = false := by decide +kernel

/-! ## The memrefs the body is called on -/

/-- Each window's current staging memref at point `t`, and that it is a whole buffer. -/
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)

/-- The accumulator: a whole scoped buffer of the kernel's own, carried from one grid point to the next. -/
abbrev scM1_0 : Memref sig .tc .vmem S1024x1024 .f32 := Memref.whole cc1_scratch0
/-- The accumulator as a view: what it holds is stated through it. -/
abbrev VS1_0 : View sig .tc .vmem S1024x1024 .f32 := scM1_0.view
/-- One staging buffer of the output window, through which the output block's contents are stated
    (which of the two buffers is immaterial: a covering list of writes reads back alike through any view). -/
abbrev VO1_3 : View sig .tc .vmem S1024x1024 .f32 := (Memref.whole cc1_stg3_0 : Memref sig .tc .vmem S1024x1024 .f32).view

/-! ## The region invariant, buffer by buffer -/

/-- The first region's four staging buffers, which this region never touches: each whole, at some contents. -/
def otherStg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The class invariant of this region: the other region's staging buffers at some contents, the accumulator owned
    at some contents, the generator register at some state. -/
theorem PhiA1_eq (c : Dev nD) :
    (Pipeline.ΦA spec1 c : sProp 𝕄)
      = iprop(otherStg (F := F) c ∗ (∃ d, owns (c : Thread nD τ) scM1_0 fullShare d) ∗ (∃ r, prngReg c r)) := by
  unfold Pipeline.ΦA otherStg; rw [scopedRest1_eq]; simp only [scM1_0, owns_whole]
  refine Idealize.SL.BI.Entails.antisymm ?_ ?_
  · show (_ : sProp 𝕄) ⊢ _
    iintro ⟨⟨Ha, Hb, Hc, Hd, He⟩, Hg⟩
    isplitl [Ha Hb Hc Hd]
    · isplitl [Ha]; · iexact Ha
      isplitl [Hb]; · iexact Hb
      isplitl [Hc]; · iexact Hc
      iexact Hd
    isplitl [He]; · iexact He
    iexact Hg
  · show (_ : sProp 𝕄) ⊢ _
    iintro ⟨⟨Ha, Hb, Hc, Hd⟩, He, Hg⟩
    isplitr [Hg]
    · isplitl [Ha]; · iexact Ha
      isplitl [Hb]; · iexact Hb
      isplitl [Hc]; · iexact Hc
      isplitl [Hd]; · iexact Hd
      iexact He
    iexact Hg

end Cert.KernelIdeal.Hand

end
-- ==== Proof.KernelIdealFrame.AttnRunA.lean ====
/-
  The second kernel region, case A: the first point of a group of sixteen. The body resets the accumulator to zero,
  adds this point's product to it, and leaves the output block alone.
-/
import proofs.«174637_j670014898407_1_alg».proof.Proof.KernelIdealFrame.AttnShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE A (the first conditional taken, the second not). On whole memrefs — the three inputs at their blocks
    `x0 x1 x2`, the output's buffer at any contents `xi3`, the accumulator at anything — the body runs to the
    continuation with the inputs and the output's buffer as they were and the accumulator written by the pieces
    `LS0` (last store first: the sum over the zero reset): the pieces are the witness the symbolic run finds.
    The first component lists the stores into the output's buffer: none. -/
noncomputable def kernelRun1_A (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i)
    (x0 : Vec F S1024x1024 .bf16) (x1 : Vec F S512x1024 .bf16) (x2 : Vec F S512x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2
    obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdealFrame.AttnRunB.lean ====
/-
  The second kernel region, case B: a point strictly inside a group of sixteen. The body adds this point's product
  to the accumulator the point before left, and leaves the output block alone.
-/
import proofs.«174637_j670014898407_1_alg».proof.Proof.KernelIdealFrame.AttnRunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE B (neither conditional taken). On whole memrefs — the three inputs at their blocks `x0 x1 x2`, the output's
    buffer at any contents `xi3`, the accumulator at `xs0`, what the point before left — the body runs to the
    continuation with the inputs and the output's buffer as they were and the accumulator written by the pieces
    `LS0` (one store: the sum): the pieces are the witness the symbolic run finds. No store into the output's buffer. -/
noncomputable def kernelRun1_B (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i)
    (x0 : Vec F S1024x1024 .bf16) (x1 : Vec F S512x1024 .bf16) (x2 : Vec F S512x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨[], ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KernelIdealFrame.AttnRunC.lean ====
/-
  The second kernel region, case C: the last point of a group of sixteen. The body adds this point's product to the
  accumulator, then stores the logistic of the finished sum into the output block.
-/
import proofs.«174637_j670014898407_1_alg».proof.Proof.KernelIdealFrame.AttnRunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- CASE C (the first conditional not taken, the second taken). On whole memrefs — the three inputs at their blocks
    `x0 x1 x2`, the output's buffer at anything, the accumulator at `xs0`, what the point before left — the body runs
    to the continuation with the inputs as they were, the output's buffer written by the pieces `L3` (one store: the
    logistic of the finished accumulator) and the accumulator by `LS0` (one store: the sum): the pieces are the
    witness the symbolic run finds. -/
noncomputable def kernelRun1_C (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i)
    (x0 : Vec F S1024x1024 .bf16) (x1 : Vec F S512x1024 .bf16) (x2 : Vec F S512x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__attn_kernel i arg2 harg2 arg3 harg3 arg4 harg4 arg5 harg5 arg6 harg6) K } := by
  refine ⟨?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2
    obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KernelIdealFrame.Attn.lean ====
/-
  The second kernel region (the fused similarity-and-mix kernel on the grid 8 × 16) as a pipeline with proof data:
  what its output block and its accumulator hold after each grid point, and the body's triple at every point.
  A group is sixteen consecutive points: its first point resets the accumulator and adds the first product, the
  inner points add theirs, the last adds its own and stores the logistic of the finished sum into the output block,
  which the pipeline writes back there and nowhere else.
-/
import proofs.«174637_j670014898407_1_alg».proof.Proof.KernelIdealFrame.AttnRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves in the output's buffer and in the accumulator -/

/-- Case A stores nothing into the output's buffer: the empty list of pieces read back over unspecified contents,
    a term nothing consults (the window is idle there: neither written back nor read at the next point). -/
def out1_A_3 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i) (x0 : Vec F S1024x1024 .bf16) (x1 : Vec F S512x1024 .bf16) (x2 : Vec F S512x1024 .f32) : Vec F S1024x1024 .f32 :=
  VO1_3.read (Elt F) (VO1_3.writes (Elt F) VO1_3.junk (kernelRun1_A c i arg2 harg2 arg3 harg3 arg4 harg4 arg5 harg5 arg6 harg6 hc0 hc1 x0 x1 x2).1)

/-- Case A's stores into the accumulator tile it: every index is written. -/
theorem scover1_A_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i) (x0 : Vec F S1024x1024 .bf16) (x1 : Vec F S512x1024 .bf16) (x2 : Vec F S512x1024 .f32) (y : S1024x1024.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1024x1024.size (by sl_kernel_rfl) y

/-- What case A leaves in the accumulator: its pieces read back (over contents that, being covered, do not matter). -/
def sout1_A_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i) (x0 : Vec F S1024x1024 .bf16) (x1 : Vec F S512x1024 .bf16) (x2 : Vec F S512x1024 .f32) : Vec F S1024x1024 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into the output's buffer either: again a term nothing consults. -/
def out1_B_3 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i) (x0 : Vec F S1024x1024 .bf16) (x1 : Vec F S512x1024 .bf16) (x2 : Vec F S512x1024 .f32) (xs0 : Vec F S1024x1024 .f32) : Vec F S1024x1024 .f32 :=
  VO1_3.read (Elt F) (VO1_3.writes (Elt F) VO1_3.junk (kernelRun1_B c i arg2 harg2 arg3 harg3 arg4 harg4 arg5 harg5 arg6 harg6 hc0 hc1 x0 x1 x2 xs0).1)

/-- Case B's one store into the accumulator tiles it. -/
theorem scover1_B_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i) (x0 : Vec F S1024x1024 .bf16) (x1 : Vec F S512x1024 .bf16) (x2 : Vec F S512x1024 .f32) (xs0 : Vec F S1024x1024 .f32) (y : S1024x1024.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1024x1024.size (by sl_kernel_rfl) y

/-- What case B leaves in the accumulator, from what the point before left there (`xs0`). -/
def sout1_B_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i) (x0 : Vec F S1024x1024 .bf16) (x1 : Vec F S512x1024 .bf16) (x2 : Vec F S512x1024 .f32) (xs0 : Vec F S1024x1024 .f32) : Vec F S1024x1024 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's one store into the output's buffer tiles it. -/
theorem cover1_C_3 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16) (x2 : Vec F S512x1024 .f32) (xs0 : Vec F S1024x1024 .f32) (y : S1024x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1024x1024.size (by sl_kernel_rfl) y

/-- What case C leaves in the output's buffer: the block the pipeline then writes back. -/
def out1_C_3 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16) (x2 : Vec F S512x1024 .f32) (xs0 : Vec F S1024x1024 .f32) : Vec F S1024x1024 .f32 :=
  VO1_3.read (Elt F) (VO1_3.writes (Elt F) VO1_3.junk (kernelRun1_C c i arg2 harg2 arg3 harg3 arg4 harg4 arg5 harg5 arg6 harg6 hc0 hc1 x0 x1 x2 xs0).1)

/-- Case C's one store into the accumulator tiles it. -/
theorem scover1_C_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16) (x2 : Vec F S512x1024 .f32) (xs0 : Vec F S1024x1024 .f32) (y : S1024x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1024x1024.size (by sl_kernel_rfl) y

/-- What case C leaves in the accumulator. -/
def sout1_C_0 (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16) (x2 : Vec F S512x1024 .f32) (xs0 : Vec F S1024x1024 .f32) : Vec F S1024x1024 .f32 :=
  VS1_0.read (Elt F) (VS1_0.writes (Elt F) VS1_0.junk (kernelRun1_C c i arg2 harg2 arg3 harg3 arg4 harg4 arg5 harg5 arg6 harg6 hc0 hc1 x0 x1 x2 xs0).2.1)

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's buffer holds its block at every point — also at the fifteen points of a group where it is
    not fetched: the block index has not moved since the group's first point, and the body leaves the block in place.
    For any proof data on the entry contents `V` whose body leaves the block. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's buffer holds its block at every point (it is fetched at each). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's buffer holds its block at every point (it is fetched at each). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The accumulation, point by point -/

/-- One point of the accumulation: from what the point before left in the accumulator (`prev`, ignored at a group's
    first point, which resets it), the pair (the output's buffer, the accumulator) after the body at `t`, by the
    position of `t` in its group of sixteen. -/
def stepAt1 (c : Dev nD) (t : Fin cfg1.N) (prev : Vec F S1024x1024 .f32) : Vec F S1024x1024 .f32 × Vec F S1024x1024 .f32 :=
  if h0 : t.val % 16 = 0 then
    (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t),
     sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => by have := (hcond1_1 t).mp h; omega) (iblk1 V c 0 t) (iblk1 V c 1 t) (iblk1 V c 2 t))
  else if h1 : t.val % 16 = 15 then
    (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev,
     sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev)
  else
    (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) prev,
     sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) prev)

/-- After grid position `n`: (the output window's staging buffer, the accumulator scratch). -/
def outsAt1 (c : Dev nD) : (n : ℕ) → n < cfg1.N → Vec F S1024x1024 .f32 × Vec F S1024x1024 .f32
  | 0, hn => stepAt1 V c ⟨0, hn⟩ (VS1_0.read (Elt F) VS1_0.junk)
  | n + 1, hn => stepAt1 V c ⟨n + 1, hn⟩ (outsAt1 c n (Nat.lt_of_succ_lt hn)).2

/-- The step at a group's first point: the reset case's contents, whatever came before. -/
theorem stepAt1_A (c : Dev nD) (t : Fin cfg1.N) (prev : Vec F S1024x1024 .f32) (h0 : t.val % 16 = 0) (h1 : ¬t.val % 16 = 15) :
    stepAt1 V c t prev
      = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
         sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  unfold stepAt1; rw [dif_pos h0]

/-- The step at a point inside a group: the accumulating case's contents over `prev`. -/
theorem stepAt1_B (c : Dev nD) (t : Fin cfg1.N) (prev : Vec F S1024x1024 .f32) (h0 : ¬t.val % 16 = 0) (h1 : ¬t.val % 16 = 15) :
    stepAt1 V c t prev
      = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) prev,
         sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) prev) := by
  unfold stepAt1; rw [dif_neg h0, dif_neg h1]

/-- The step at a group's last point: the writing case's contents over `prev`. -/
theorem stepAt1_C (c : Dev nD) (t : Fin cfg1.N) (prev : Vec F S1024x1024 .f32) (h0 : ¬t.val % 16 = 0) (h1 : t.val % 16 = 15) :
    stepAt1 V c t prev
      = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev,
         sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) prev) := by
  unfold stepAt1; rw [dif_neg h0, dif_pos h1]

/-- After any point but the very first, `outsAt1` is one step over what the point before left. -/
theorem outsAt1_step (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨n, hn⟩ := t
  cases n with
  | zero => exact absurd rfl hz
  | succ n => rfl

/-- `outsAt1` at a group's first point: the reset case's contents. -/
theorem outsAt1_A (c : Dev nD) (t : Fin cfg1.N) (h0 : t.val % 16 = 0) (h1 : ¬t.val % 16 = 15) :
    outsAt1 V c t.val t.isLt
      = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t),
         sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact stepAt1_A V c ⟨0, hn⟩ _ h0 h1
  | succ n => exact stepAt1_A V c ⟨n + 1, hn⟩ _ h0 h1

/-- `outsAt1` at a point inside a group: the accumulating case's contents, over what the point before left. -/
theorem outsAt1_B (c : Dev nD) (t : Fin cfg1.N) (h0 : ¬t.val % 16 = 0) (h1 : ¬t.val % 16 = 15) :
    outsAt1 V c t.val t.isLt
      = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2,
         sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  rw [outsAt1_step V c t (fun e => h0 (by rw [e]))]
  exact stepAt1_B V c t _ h0 h1

/-- `outsAt1` at a group's last point: the writing case's contents, over what the point before left. -/
theorem outsAt1_C (c : Dev nD) (t : Fin cfg1.N) (h0 : ¬t.val % 16 = 0) (h1 : t.val % 16 = 15) :
    outsAt1 V c t.val t.isLt
      = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
         sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  rw [outsAt1_step V c t (fun e => h0 (by rw [e]))]
  exact stepAt1_C V c t _ h0 h1

/-! ## The region invariant -/

/-- The region invariant before position `n`. Before the first point the class's own (the accumulator at anything);
    afterwards the other region's staging buffers at some contents, the accumulator at what the point before left in
    it, and the generator register at some state. -/
def PhiS1 (c : Dev nD) : (n : ℕ) → n ≤ cfg1.N → sProp 𝕄
  | 0, _ => Pipeline.ΦA spec1 c
  | n + 1, hn => iprop(otherStg (F := F) c ∗ owns (c : Thread nD τ) scM1_0 fullShare ((outsAt1 V c n hn).2) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(otherStg (F := F) c ∗ owns (c : Thread nD τ) scM1_0 fullShare ((outsAt1 V c n hn).2) ∗ (∃ r, prngReg c r)) := rfl

theorem PhiS1_pos (c : Dev nD) (n : ℕ) (h : n ≤ cfg1.N) (hz : n ≠ 0) :
    PhiS1 V c n h = iprop(otherStg (F := F) c ∗ owns (c : Thread nD τ) scM1_0 fullShare ((outsAt1 V c (n - 1) (by omega)).2) ∗ (∃ r, prngReg c r)) := by
  cases n with
  | zero => exact absurd rfl hz
  | succ n => rfl

/-! ## The proof data -/

/-- The proof data of the second pipeline: the two windows on the normalized array each hold half of its share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- Each input window's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

/-- An input window's post is its buffer at its block. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (ms1_2 t) fullShare (iblk1 V c 2 t) := by
  rw [show (dat1 V c).leavesExact 2 t = owns (c : Thread nD τ) (ms1_2 t) fullShare ((dat1 V c).after 2 t) from by
    unfold Dat.leavesExact; rw [liveAt1_2 t], after1_2]

set_option maxHeartbeats 4800000 in
/-- The body at any point. The inputs' buffers hold their blocks; the position of the point in its group says which
    case runs; the invariant hands the body the accumulator at what the point before left (at anything before the very
    first point) and takes it back at this point's contents; the other region's buffers, the generator register and the
    core's tallies ride along untouched; the output's buffer comes back as found unless the point is a group's last. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 128 := lt_of_lt_of_eq t.isLt (show cfg1.N = 128 from N_1)
  by_cases h0 : t.val % 16 = 0
  · have h1 : ¬t.val % 16 = 15 := by omega
    have hnc1 : ¬cond1_1 (grid1.coords t) := fun h => h1 ((hcond1_1 t).mp h)
    rw [Dat.leavesExact_idle (dat1 V c) 3 t (idleAt1_3 t hnc1) (noFlush1_3 t hnc1)]
    rw [outsAt1_A V c t h0 h1]
    unfold sout1_A_0; (try dsimp only)
    by_cases hz : t.val = 0
    · rw [PhiS1_castSucc V c t, PhiS1_zero V c _ _ hz, PhiA1_eq]
      iintro ⟨⟨Hr, HS0, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hnc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨Hr, HS0, Hg⟩, Ho, ⟨%d0, H0⟩, ⟨%d1, H1⟩, ⟨%d2, H2⟩, ⟨%d3, H3⟩⟩
      iapply ((kernelRun1_A c (grid1.coords t) _ _ _ _ _ _ _ _ _ _ ((hcond1_0 t).mpr h0) hnc1 (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_A_0 c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hnc0 : ¬cond1_0 (grid1.coords t) := fun h => h0 ((hcond1_0 t).mp h)
    rw [PhiS1_castSucc V c t, PhiS1_pos V c _ _ hz]
    by_cases h1 : t.val % 16 = 15
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C_0; (try dsimp only)
      iintro ⟨⟨Hr, HS0, Hg⟩, Ho, ⟨%d0, H0⟩, ⟨%d1, H1⟩, ⟨%d2, H2⟩, ⟨%d3, H3⟩⟩
      iapply ((kernelRun1_C c (grid1.coords t) _ _ _ _ _ _ _ _ _ _ hnc0 ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · have hnc1 : ¬cond1_1 (grid1.coords t) := fun h => h1 ((hcond1_1 t).mp h)
      rw [Dat.leavesExact_idle (dat1 V c) 3 t (idleAt1_3 t hnc1) (noFlush1_3 t hnc1)]
      rw [outsAt1_B V c t h0 h1]
      unfold sout1_B_0; (try dsimp only)
      iintro ⟨⟨Hr, HS0, Hg⟩, Ho, ⟨%d0, H0⟩, ⟨%d1, H1⟩, ⟨%d2, H2⟩, ⟨%d3, H3⟩⟩
      iapply ((kernelRun1_B c (grid1.coords t) _ _ _ _ _ _ _ _ _ _ hnc0 hnc1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Hr HS0 Hg]
      · isplitl [Hr]; · iexact Hr
        isplitl [HS0]
        · unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After any point but the first the invariant gives the class's back: the accumulator's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨Hr, HS0, Hg⟩
  isplitl [Hr]; · iexact Hr
  isplitl [HS0]; · iexists _; iexact HS0
  iexact Hg

theorem hout1 (c : Dev nD) : (dat1 V c).Φ (Fin.last cfg1.N) ⊢ (Pipeline.ΦA spec1 c : sProp 𝕄) :=
  Phi_out1 V c _ (by rw [Fin.val_last]; have : cfg1.N = 128 := N_1; omega)

end Cert.KernelIdeal.Hand

end
-- ==== Proof.KernelIdealFrame.AttnShare.lean ====
/-
  The second pipeline stages the normalized array through two of its four windows. The array is one buffer, held
  whole at the full share before the pipeline is entered; each of the two windows holds it at half of that share
  while the pipeline runs, and the two halves are put together again when it is left. The other two windows' arrays
  (the input and the result) are buffers of their own and keep the full share throughout.
-/
import proofs.«174637_j670014898407_1_alg».proof.Proof.KernelIdealFrame.Attn

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind the four windows' arrays: three of them, the normalized array counted once. -/
theorem arrBufs1_eq (c : Dev nD) (W : (b : Ref sig .tc) → Buf (Elt F) ((c : Thread nD τ).loc b)) :
    (Pipeline.arrBufs spec1 c W : sProp 𝕄)
      = iprop((((c : Thread nD τ).loc main_v0) ↦{fullShare} W main_v0) ∗ (((c : Thread nD τ).loc main_arg0) ↦{fullShare} W main_arg0)
          ∗ (((c : Thread nD τ).loc main_v1) ↦{fullShare} W main_v1)) := by
  unfold Pipeline.arrBufs
  rw [bigSep_eq_bigSepL_of_eq [main_v0, main_arg0, main_v1] (by decide) (by decide)]
  rfl

/-- The pipeline's arrays window by window: every array is a whole buffer; the two windows on the normalized
    array hold the left and the right half of its share, the other two the full share. -/
theorem arrays1_eq (c : Dev nD) (G : (w : Fin cfg1.W) → Buf (Elt F) ((cfg1.win w).arr.view.loc (c.tc : Thread nD τ))) :
    ((dat1 V c).arrays G : sProp 𝕄)
      = iprop((((c : Thread nD τ).loc main_v0) ↦{fullShare.left} G 0) ∗ (((c : Thread nD τ).loc main_v0) ↦{fullShare.right} G 1)
          ∗ (((c : Thread nD τ).loc main_arg0) ↦{fullShare} G 2) ∗ (((c : Thread nD τ).loc main_v1) ↦{fullShare} G 3)) := by
  have hwhole : (dat1 V c).arrays G
      = bigSep Finset.univ fun w : Fin cfg1.W => ((cfg1.win w).arr.view.loc (c.tc : Thread nD τ) ↦{(dat1 V c).share w} G w : sProp 𝕄) := by
    unfold Dat.arrays
    exact bigSep_congr fun w _ => by rw [(arr_whole1 w).set_eq_univ]
  rw [hwhole, bigSep_W1]
  rfl

/-- At entry: the full share of the normalized array is halved between the two windows that stage it. -/
theorem split1 (c : Dev nD) : (Pipeline.arrBufs spec1 c (V c) : sProp 𝕄) ⊢ (dat1 V c).arrays (fun w => (dat1 V c).arrAt w 0) := by
  rw [arrBufs1_eq, arrays1_eq]
  iintro ⟨Hn, Hx, Ho⟩
  ihave Hn := (pointsTo_share (PosShare.mem_left_op_right fullShare)).1 $$ Hn
  icases Hn with ⟨Hl, Hr⟩
  isplitl [Hl]; · iexact Hl
  isplitl [Hr]; · iexact Hr
  isplitl [Hx]; · iexact Hx
  iexact Ho

/-- At exit: the two halves, both still at the contents the array had at entry, are joined; the result array is at
    what the write-backs left, every other buffer as it was. -/
theorem join1 (c : Dev nD) (V' : (b : Ref sig .tc) → Buf (Elt F) ((c : Thread nD τ).loc b)) (h3 : (dat1 V c).arrAt 3 cfg1.N = V' main_v1)
    (hrest : ∀ b : Ref sig .tc, b ≠ main_v1 → V' b = V c b) :
    (dat1 V c).arrays (fun w => (dat1 V c).arrAt w cfg1.N) ⊢ (Pipeline.arrBufs spec1 c V' : sProp 𝕄) := by
  -- an input window's array is never written: it stays at the entry contents, which the exit contents repeat
  have e0 : (dat1 V c).arrAt 0 cfg1.N = V' main_v0 :=
    ((dat1 V c).arrAt_in 0 rfl cfg1.N).trans (hrest main_v0 (by decide)).symm
  have e1 : (dat1 V c).arrAt 1 cfg1.N = V' main_v0 :=
    ((dat1 V c).arrAt_in 1 rfl cfg1.N).trans (hrest main_v0 (by decide)).symm
  have e2 : (dat1 V c).arrAt 2 cfg1.N = V' main_arg0 :=
    ((dat1 V c).arrAt_in 2 rfl cfg1.N).trans (hrest main_arg0 (by decide)).symm
  rw [arrBufs1_eq, arrays1_eq, e0, e1, e2, h3]
  iintro ⟨Hl, Hr, Hx, Ho⟩
  ihave Hn := (pointsTo_share (PosShare.mem_left_op_right fullShare)).2 $$ [Hl Hr]
  · isplitl [Hl] <;> iassumption
  isplitl [Hn]; · iexact Hn
  isplitl [Hx]; · iexact Hx
  iexact Ho

end Cert.KernelIdeal.Hand

end
-- ==== Proof.KernelIdealFrame.Segments.lean ====
/-
  The whole program as two kernel regions in sequence, and its run.
  Between the regions each core holds every unscoped buffer whole: at launch the memory's contents; after the first
  region the normalized array at what that region's write-backs leave; after the second the result array likewise.
  The second region stages ONE array (the normalized one) through two of its windows, so at its entry that array's
  ownership is halved between them, and at its exit the halves, still at the entry contents, are joined again.
  The run's post reads every unscoped buffer off the last of these valuations: the arguments are as launched, and
  the result array is what the second region's proof data computes.
-/
import proofs.«174637_j670014898407_1_alg».proof.Proof.KernelIdealFrame.Norm
import proofs.«174637_j670014898407_1_alg».proof.Proof.KernelIdealFrame.Attn
import proofs.«174637_j670014898407_1_alg».proof.Proof.KernelIdealFrame.AttnShare

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffers' contents at the three boundaries -/

/-- At launch. -/
abbrev W0 (c : Dev nD) : Valuation τ sig (Elt F) := fun b => m (c, b)
/-- The same at the TensorCore's references: what the first region's proof data take. -/
abbrev E0 (c : Dev nD) (b : Ref sig .tc) : Buf (Elt F) ((c : Thread nD τ).loc b) := W0 m c b

/-- What the first region leaves in the normalized array. -/
abbrev mid (c : Dev nD) : Buf (Elt F) ((c : Thread nD τ).loc main_v0) := (dat0 (E0 m) c).arrAt 1 cfg0.N

/-- After the first region: the normalized array at what the region leaves, every other buffer as launched. -/
def W1 (c : Dev nD) : Valuation τ sig (Elt F) := Function.update (W0 m c) main_v0 (mid m c)
abbrev E1 (c : Dev nD) (b : Ref sig .tc) : Buf (Elt F) ((c : Thread nD τ).loc b) := W1 m c b

/-- What the second region leaves in the result array. -/
abbrev fin (c : Dev nD) : Buf (Elt F) ((c : Thread nD τ).loc main_v1) := (dat1 (E1 m) c).arrAt 3 cfg1.N

/-- After the second region: the result array at what the region leaves, every other buffer as before it. -/
def W2 (c : Dev nD) : Valuation τ sig (Elt F) := Function.update (W1 m c) main_v1 (fin m c)
abbrev E2 (c : Dev nD) (b : Ref sig .tc) : Buf (Elt F) ((c : Thread nD τ).loc b) := W2 m c b

theorem W1_v0 (c : Dev nD) : W1 m c main_v0 = mid m c := by
  unfold W1; exact Function.update_self ..
theorem W1_of_ne (c : Dev nD) (r : Ref sig .tc) (h : r ≠ main_v0) : W1 m c r = W0 m c r := by
  unfold W1; exact Function.update_of_ne (StableHlo.devRef_ne_of_ne h) ..
theorem W2_v1 (c : Dev nD) : W2 m c main_v1 = fin m c := by
  unfold W2; exact Function.update_self ..
theorem W2_of_ne (c : Dev nD) (r : Ref sig .tc) (h : r ≠ main_v1) : W2 m c r = W1 m c r := by
  unfold W2; exact Function.update_of_ne (StableHlo.devRef_ne_of_ne h) ..

/-! ## The proof data family and what rides beside the buffers -/

/-- No pipeline has a prefetched table. -/
abbrev admH : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) admH p) c
  | ⟨0, _⟩ => fun c => dat0 (E0 m) c
  | ⟨1, _⟩ => fun c => dat1 (E1 m) c

abbrev 𝒱H : Variants := Variants.none
/-- No core owes another anything: no level is assigned. -/
abbrev LH : GSem nD τ sig → Finset Unit := fun _ => ∅
abbrev lvH : GSem nD τ sig → Unit → ℕ := fun _ _ => 0

/-- Beside the buffers through both regions: the generator register at some state, and the core owing nothing. -/
abbrev side (c : Dev nD) : sProp 𝕄 := iprop((∃ r, prngReg c r) ∗ ∃ W, owes (c : Thread nD τ) (0 : CellTallies nD τ sig Unit) W)

/-- The thread state at a boundary: every unscoped buffer at the boundary's contents, and `side`. -/
abbrev stateAt (W : Dev nD → Valuation τ sig (Elt F)) (c : Dev nD) : sProp 𝕄 :=
  iprop(StableHlo.held (c : Thread nD τ) (Pipeline.ucRefs τ sig) (W c) ∗ side (F := F) c)

/-! ## The first region as a segment -/

theorem exit0_arr (c : Dev nD) (w : Fin cfg0.W) : (dat0 (E0 m) c).arrAt w cfg0.N = E1 m c (Pipeline.arrRef spec0 w) := by
  match w with
  | ⟨0, _⟩ =>
    exact ((dat0 (E0 m) c).arrAt_in 0 rfl _).trans ((A_eq0 (E0 m) c 0).trans (W1_of_ne m c main_arg0 (by decide)).symm)
  | ⟨1, _⟩ => exact (W1_v0 m c).symm

theorem exit0_rest (c : Dev nD) : ∀ b, b ∉ Finset.univ.image (Pipeline.arrRef spec0) → E1 m c b = E0 m c b := fun b hb =>
  W1_of_ne m c b fun e => hb (Finset.mem_image.mpr ⟨1, Finset.mem_univ _, e.symm⟩)

set_option backward.isDefEq.respectTransparency.types false in
/-- The first region: entered with every unscoped buffer as launched, left with the normalized array written. Its two
    arrays are distinct, each held whole; the generator register goes into the class invariant and comes back. -/
def reg0 : RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ LH lvH 0 fun _ _ => rfl
  pre c := iprop(StableHlo.held (c : Thread nD τ) (Pipeline.ucRefs τ sig) (W0 m c) ∗ side (F := F) c)
  post c := iprop(StableHlo.held (c : Thread nD τ) (Pipeline.ucRefs τ sig) (W1 m c) ∗ side (F := F) c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The second region as a segment -/

/-- At the second region's entry the unscoped buffers are the three buffers behind its windows' arrays and the rest. -/
theorem held_split1 (c : Dev nD) (W : Valuation τ sig (Elt F)) :
    (StableHlo.held (c : Thread nD τ) (Pipeline.ucRefs τ sig) W : sProp 𝕄)
      = iprop(Pipeline.arrBufs spec1 c (fun b => W b) ∗ Pipeline.unscopedRest spec1 c (fun b => W b)) :=
  (Pipeline.unscopedBufs_held (Ix := Unit) (Name := ℕ) (U := UR sig nD τ) (Lvl := ℕ) c W).symm.trans
    (Pipeline.unscopedBufs_split₀ (cfgs := cfgs) (p := (1 : Fin 2)) winFacts₀1.arr_unscoped c (fun b => W b))

/-- The second region writes the result array only: the buffers that are no array of its windows are untouched. -/
theorem rest1_keep (c : Dev nD) :
    (Pipeline.unscopedRest (Ix := Unit) (Name := ℕ) (U := UR sig nD τ) (Lvl := ℕ) spec1 c (E1 m c) : sProp 𝕄)
      = Pipeline.unscopedRest spec1 c (E2 m c) := by
  unfold Pipeline.unscopedRest
  exact bigSep_congr fun b hb => by
    rw [show E2 m c b = E1 m c b from W2_of_ne m c b fun e =>
      (Finset.mem_sdiff.mp hb).2 (Finset.mem_image.mpr ⟨3, Finset.mem_univ _, e.symm⟩)]

set_option backward.isDefEq.respectTransparency.types false in
/-- The second region: entered with the normalized array written, left with the result array written. The normalized
    array's ownership is halved between the two windows that stage it and joined again at the exit. -/
def reg1 : RegionSeg (pcfgs (F := F)) admH (pdats m) () defs₀ 𝒱H LH lvH 1 where
  win := winFacts₀1
  block_pos := block_pos1
  stage_whole := stage_whole1
  K := PEmpty
  osem k := k.elim
  ho := Pipeline.OwnSemFacts.none _
  hbody c := (body_obligation1 (E1 m) c).loose
  hwaits := Pipeline.hwaits_of_owed_zero _ _ _ _ LH lvH 1 fun _ _ => rfl
  pre c := iprop(StableHlo.held (c : Thread nD τ) (Pipeline.ucRefs τ sig) (W1 m c) ∗ side (F := F) c)
  post c := iprop(iprop(StableHlo.held (c : Thread nD τ) (Pipeline.ucRefs τ sig) (W2 m c) ∗ ∃ r, prngReg c r)
    ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    iintro ⟨⟨Hub, Hp, HO⟩, -, -⟩
    ihave H := (Entails.of_eq (held_split1 c (W1 m c))) $$ Hub
    icases H with ⟨Hab, Hrest⟩
    ihave Ha := (split1 (E1 m) c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E1 m) c).Φ 0 from rfl]
    iintro ⟨Hp, -, Hr⟩
    iapply (hin1 (E1 m) c)
    unfold Pipeline.ΦA
    isplitl [Hr]; · iexact Hr
    iexact Hp
  hout c := by
    rw [Pipeline.ownSems0_none]
    refine (hout1 (E1 m) c).trans ?_
    unfold Pipeline.ΦA
    iintro ⟨Hr, Hp⟩
    isplitl [Hp]; · iexact Hp
    isplitr; · iempintro
    iexact Hr
  hexit c := by
    have hj : (pdats m 1 c).arrays (fun w => (pdats m 1 c).arrAt w cfg1.N) ⊢ (Pipeline.arrBufs spec1 c (E2 m c) : sProp 𝕄) :=
      join1 (E1 m) c (E2 m c) (W2_v1 m c).symm (fun b hb => W2_of_ne m c b hb)
    iintro ⟨Ha, HO, HY, Hrest⟩
    ihave Hab := hj $$ Ha
    ihave Hrest' := (Entails.of_eq (rest1_keep m c)) $$ Hrest
    imodintro
    isplitl [Hab Hrest' HY]
    · isplitl [Hab Hrest']
      · iapply (Entails.of_eq (held_split1 c (W2 m c)).symm); isplitl [Hab] <;> iassumption
      iexact HY
    unfold Pipeline.Dat.owesAt Pipeline.owesWithin
    icases HO with ⟨%W, -, HO⟩; iexists W; iexact HO

/-! ## The run -/

/-- The program's two segments. -/
abbrev segsH : List (Seg (pcfgs (F := F)) admH (pdats m) () defs₀ 𝒱H LH lvH) := [.region (reg0 m), .region (reg1 m)]

/-- An unscoped reference of the TensorCore is among those the thread state holds. -/
theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN. From any memory with zero counters every weakly fair execution of the program terminates without a fault,
    with the result array at what the second region's proof data computes and both arguments as launched. -/
theorem run_all : θ_run defs (onTc (τ := τ) (main (F := F))) ⟨m, fun _ => 0, ρ⟩ (fun r => ∀ c : Dev nD,
      r.2.mem ((c.tc : Thread nD τ).loc main_v1) = fin m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) admH (pdats m) () cellOf_inj emb₁ defs₀ 𝒱H LH lvH m ρ main (segsH m)
    (fun c Q => by rw [main_segs admH (pdats m) () 𝒱H LH lvH (reg0 m) (reg1 m) c])
    (by simp only [segsH, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ side (F := F) c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_ucH main_v1 (by decide))).trans (W2_v1 m c),
       (h c _ (mem_ucH main_arg0 (by decide))).trans (((W2_of_ne m c main_arg0 (by decide)).trans (W1_of_ne m c main_arg0 (by decide)))),
       (h c _ (mem_ucH main_arg1 (by decide))).trans (((W2_of_ne m c main_arg1 (by decide)).trans (W1_of_ne m c main_arg1 (by decide))))⟩)

/-- THE FRAME: the program runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_all m ρ)

end Cert.KernelIdeal.Hand

end
-- ==== Proof.KernelIdealValue.Spec.lean ====
/-
  The function both programs compute, index by index over the extended reals.
  For an input matrix x (8192 rows of 1024 entries):
    ssq x r   = Σ_e x[r,e]²                       the squared length of row r
    den x r   = max (sqrt (ssq x r)) ε            its length, kept away from zero by the literal ε
    xn x r e  = x[r,e] / den x r                  the normalized row
    sim x i j = Σ_e xn[i,e] · xn[j,e]             the cosine similarity of rows i and j
    acc x i d = Σ_j sim[i,j] · x[j,d]             the similarity-weighted mix of the rows
    G x [i,d] = logistic (acc x i d)
-/
import Idealize.ShloMosaic.PureOps.Ideal
import Idealize.ShloMosaic.Lib.ValueIdx

noncomputable section

namespace Cert.Spec

open Idealize.ShloMosaic Idealize.ShloMosaic.ValueIdx

/-- The shape of the input and of the result. -/
abbrev SX : Shape := ⟨2, ![8192, 1024]⟩

/-- The literal ε the row lengths are clamped to from below (the binary32 word nearest 1e-8), as both programs spell it. -/
def eps : EReal := Ideal.ofBits .f32 0x322BCC77#32

/-- The squared length of row `r`. -/
def ssq (x : SX.Idx → EReal) (r : Fin 8192) : EReal := ∑ e : Fin 1024, x (ix2 r e) * x (ix2 r e)

/-- The clamped length of row `r`. -/
def den (x : SX.Idx → EReal) (r : Fin 8192) : EReal := max (Ideal.sqrt (ssq x r)) eps

/-- Entry `e` of the normalized row `r`. -/
def xn (x : SX.Idx → EReal) (r : Fin 8192) (e : Fin 1024) : EReal := Ideal.div (x (ix2 r e)) (den x r)

/-- The similarity of rows `i` and `j`. -/
def sim (x : SX.Idx → EReal) (i j : Fin 8192) : EReal := ∑ e : Fin 1024, xn x i e * xn x j e

/-- The summand of the mix: row `j`'s contribution to entry `(i, d)`. -/
def term (x : SX.Idx → EReal) (i : Fin 8192) (d : Fin 1024) (j : Fin 8192) : EReal := sim x i j * x (ix2 j d)

/-- The mix of all rows, weighted by their similarity to row `i`, at column `d`. -/
def acc (x : SX.Idx → EReal) (i : Fin 8192) (d : Fin 1024) : EReal := ∑ j : Fin 8192, term x i d j

/-- A sum over the rows below `n` only. -/
def sumBelow (f : Fin 8192 → EReal) (n : ℕ) : EReal := ∑ j ∈ Finset.univ.filter (fun j : Fin 8192 => j.val < n), f j

/-- The mix of the rows below `n` only: what the accumulation holds after the row blocks below `n`. -/
def accBelow (x : SX.Idx → EReal) (i : Fin 8192) (d : Fin 1024) (n : ℕ) : EReal := sumBelow (term x i d) n

/-- The result, index by index. -/
def G (x : SX.Idx → EReal) : SX.Idx → EReal := fun p => Ideal.logistic (acc x (p 0) (p 1))

/-! ## The same over ANY normalized array

The second kernel reads the normalized rows from an array `a` the first kernel wrote; its result is a function of
`a` and of the input `x`. With `a` the normalized rows of `x` it is `G x`. -/

/-- The similarity of rows `i` and `j` of an array `a`. -/
def simOf (a : SX.Idx → EReal) (i j : Fin 8192) : EReal := ∑ e : Fin 1024, a (ix2 i e) * a (ix2 j e)

/-- Row `j`'s contribution to entry `(i, d)` of the mix. -/
def termOf (a x : SX.Idx → EReal) (i : Fin 8192) (d : Fin 1024) (j : Fin 8192) : EReal := simOf a i j * x (ix2 j d)

/-- The mix of all rows of `x`, weighted by the similarities of `a`'s rows. -/
def accOf (a x : SX.Idx → EReal) (i : Fin 8192) (d : Fin 1024) : EReal := ∑ j : Fin 8192, termOf a x i d j

/-- The result from a normalized array `a` and the input `x`. -/
def GOf (a x : SX.Idx → EReal) : SX.Idx → EReal := fun p => Ideal.logistic (accOf a x (p 0) (p 1))

/-- The normalized rows of `x` as an array. -/
def xnArr (x : SX.Idx → EReal) : SX.Idx → EReal := fun p => xn x (p 0) (p 1)

/-- With the normalized rows of `x` for `a`, the result is `G x`. -/
theorem G_eq_GOf (x : SX.Idx → EReal) : G x = GOf (xnArr x) x := rfl

end Cert.Spec

end
-- ==== Proof.LibColumn.lean ====
/-
  Column vectors at an index. A sum along the last axis of an `[a, n]` array is an `[a]` array; kept as a column it is
  viewed as `[a, 1]` and then laid across the `b` columns of an `[a, b]` array, so that every entry of a row meets its
  row's sum. Read at an index, each of the three steps moves no data: the cast reads the same position, the spread
  reads its row's one entry, and the sum at row `r` adds the row's `n` entries.
-/
import Idealize.ShloMosaic.Lib.Pipeline.Value
import Idealize.ShloMosaic.Lib.ValueIdx
import Idealize.ShloMosaic.PureOps.Ideal.Laws

noncomputable section

open scoped BigOperators

namespace Cert.LibColumn

open Idealize.ShloMosaic Idealize.ShloMosaic.ValueIdx

variable {α : Type}

/-- An `[a]` array cast to the column `[a, 1]` reads, at `(i, u)`, the operand at `i`, whatever the unit coordinate `u`:
    position `i · 1 + u` of the column is position `i` of the array. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index of a sum along axis 1 of a rank-2 array, over row `r` with coordinate `k` on the summed axis, is
    `(r, k)`. -/
theorem lift_last_ix1 {a n : ℕ} (h : (⟨2, ![a, n]⟩ : Shape).Reduces [1] ⟨1, ![a]⟩) (r : Fin a) (k : Fin n) :
    h.lift (ix1 r) k = ix2 r k := by
  funext c
  apply Fin.ext
  show h.liftVal (ix1 r) k.val c = (ix2 r k c).val
  unfold Shape.Reduces.liftVal
  match c with
  | ⟨0, _⟩ => rfl
  | ⟨1, _⟩ => rfl

/-- At the extended reals a lane sum along the last axis of an `[a, n]` array (from the neutral zero, which the reading
    drops) is, at row `r`, the sum of the row's `n` entries. The hypothesis on the accumulator word is typed as a printed
    program carries it: the zero word equal to itself. -/
theorem multiReduction_add_last_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (r : Fin a) :
    multiReduction .add [1] ⟨1, ![a]⟩ src 0x00000000#32 h hφ hacc (ix1 r) = ∑ k : Fin n, src (ix2 r k) := by
  refine (Ideal.multiReduction_add_single src 0x00000000#32 h hφ hacc (ix1 r)).trans ?_
  exact Finset.sum_congr rfl fun k _ => congrArg src (lift_last_ix1 h r k)

end Cert.LibColumn

end
-- ==== Proof.KernelIdealValue.NormValue.lean ====
/-
  The first kernel at the extended reals: the array it leaves holds the normalized rows of the input — every row divided
  by its clamped length. Block t of the output is the normalized block t of the input (the rows of a block are whole
  rows of the matrix, so a row's length is computed inside its block), and the eight blocks tile the array.
-/
import proofs.«174637_j670014898407_1_alg».proof.Proof.KernelIdealFrame.Norm
import proofs.«174637_j670014898407_1_alg».proof.Proof.KernelIdealValue.Spec
import proofs.«174637_j670014898407_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NormValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- The normalized block: entry (p, q) of the payload is the block's entry over the clamped length of its row.
    The format change and the quotient act entry by entry; the divisor at (p, q) is the column entry of row p, laid
    across the row; that entry is the larger of the literal and the root of the row's one sum; and the row's sum adds
    the squares of the row's 1024 entries. -/
theorem k0_pay1_apply (x0 : Vec Ideal S1024x1024 .f32) (p q : Fin 1024) :
    k0_pay1 (F := Ideal) x0 (ix2 p q)
      = Ideal.div (x0 (ix2 p q)) (max (Ideal.sqrt (∑ e : Fin 1024, x0 (ix2 p e) * x0 (ix2 p e))) Cert.Spec.eps) := by
  unfold k0_pay1
  -- narrowing to the shorter format is the identity on extended reals
  refine (truncf_apply (s := S1024x1024) (φ := .f32) (ψ := .bf16) _ bitsLt_bf16_f32 (ix2 p q)).trans ?_
  -- the quotient, entry by entry
  refine (divf_apply (s := S1024x1024) (φ := .f32) _ _ _).trans ?_
  refine congrArg (Ideal.div (x0 (ix2 p q))) ?_
  -- the divisor at (p, q) is the column's entry of row p
  refine (Cert.LibColumn.broadcastTo_a1_ab_apply _ _ p q).trans ?_
  refine (maximumf_apply (s := S1024x1) (φ := .f32) _ _ _).trans ?_
  refine congrArg₂ max ?_ ?_
  · -- the root of the row's sum of squares
    refine congrArg Ideal.sqrt ?_
    refine (Cert.LibColumn.shapeCast_a_a1_apply _ _ p 0).trans ?_
    refine (Cert.LibColumn.multiReduction_add_last_apply _ _ _ _ p).trans ?_
    rfl
  · -- the literal, read as the extended real its word encodes (the word itself is never evaluated)
    rfl

/-! ## From the eight blocks to the array -/

/-- The zero offsets of the one rectangle the body loads and stores through, as a constant function. -/
theorem zeros2 : (![0, 0] : Fin 2 → Nat) = fun _ => 0 := funext fun a => by fin_cases a <;> rfl

/-- The printed block-index maps over the grid of 8 points: at point t both windows sit at row block t, column block 0. -/
theorem blockIdx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A block of whole rows normalizes like the matrix: if block B holds rows 1024 t … 1024 t + 1023 of X, then the
    payload of B at (p, q) is the normalized entry (1024 t + p, q) of X — the row's squared length adds the same
    1024 entries whether read in the block or in the matrix. -/
theorem pay_of_rows (X : Cert.Spec.SX.Idx → EReal) (B : Vec Ideal S1024x1024 .f32) (r : Fin 1024 → Fin 8192)
    (hB : ∀ (p q : Fin 1024), B (ix2 p q) = X (ix2 (r p) q)) (p q : Fin 1024) :
    k0_pay1 (F := Ideal) B (ix2 p q) = Cert.Spec.xnArr X (ix2 (r p) q) := by
  rw [k0_pay1_apply]
  show _ = Ideal.div (X (ix2 (r p) q)) (max (Ideal.sqrt (∑ e : Fin 1024, X (ix2 (r p) e) * X (ix2 (r p) e))) Cert.Spec.eps)
  rw [hB p q]
  refine congrArg (fun s => Ideal.div (X (ix2 (r p) q)) (max (Ideal.sqrt s) Cert.Spec.eps)) ?_
  exact Finset.sum_congr rfl fun e _ => by rw [hB p e]

/-- Point t's input block holds rows 1024 t … 1024 t + 1023 of the input, all 1024 columns: an entry of a block sits
    in the matrix at block index × block size + its own coordinate, and the block index at point t is (t, 0). -/
theorem inblock_rows (c : Dev nD) (t : Fin cfg0.N) (ht : t.val < 8) (p q : Fin 1024) :
    (iblk0 (F := Ideal) V c 0 t : Vec Ideal S1024x1024 .f32) (ix2 p q)
      = (V c main_arg0 : Cert.Spec.SX.Idx → EReal) (ix2 ⟨1024 * t.val + p.val, by have := p.isLt; omega⟩ q) := by
  obtain ⟨e0, e1, -, -⟩ := blockIdx t
  unfold iblk0
  rw [View.read_apply]
  show V c main_arg0 (((cfg0.win 0).blk t).view.emb (ix2 p q)) = V c main_arg0 _
  refine congrArg _ ?_
  funext a; apply Fin.ext
  match a with
  | ⟨0, _⟩ => show win0_0.index t (0 : Fin 2) * 1024 + 1 * p.val = 1024 * t.val + p.val; omega
  | ⟨1, _⟩ => show win0_0.index t (1 : Fin 2) * 1024 + 1 * q.val = q.val; omega

/-- Entry (p, q) of point t's output block sits in the output array at (1024 t + p, q). -/
theorem outblock_pos (t : Fin cfg0.N) (ht : t.val < 8) (p q : Fin 1024) :
    ((cfg0.win 1).blk t).view.emb (ix2 p q) = (ix2 ⟨1024 * t.val + p.val, by have := p.isLt; omega⟩ q : Cert.Spec.SX.Idx) := by
  obtain ⟨-, -, e2, e3⟩ := blockIdx t
  funext a; apply Fin.ext
  match a with
  | ⟨0, _⟩ => show win0_1.index t (0 : Fin 2) * 1024 + 1 * p.val = 1024 * t.val + p.val; omega
  | ⟨1, _⟩ => show win0_1.index t (1 : Fin 2) * 1024 + 1 * q.val = q.val; omega

/-- WHAT POINT t WRITES BACK is block t of the normalized rows of the input as the region found it: the body's one
    store leaves the payload of the loaded block, the loaded block is the input's rows of that block, and the block
    goes back to the same rows of the output. -/
theorem flushed_norm (c : Dev nD) (t : Fin cfg0.N) :
    (dat0 (F := Ideal) V c).flushed 1 t
      = ((cfg0.win 1).blk t).view.read (Elt Ideal) (Cert.Spec.xnArr (V c main_arg0)) := by
  show (cfg0.win 1).cut (grid0.coords t) ((dat0 V c).after 1 t) = _
  rw [after0_1]
  unfold out0_1
  rw [View.canon_unit_zero zeros2]
  simp only [View.ld_unit_zero (S := S1024x1024) zeros2]
  have ht : t.val < 8 := Nat.lt_of_lt_of_eq t.isLt N_0
  funext j
  obtain ⟨p, q, rfl⟩ : ∃ (p q : Fin 1024), j = ix2 p q := ⟨j 0, j 1, eq_ix2 j⟩
  show k0_pay1 (F := Ideal) (iblk0 V c 0 t) (ix2 p q) = Cert.Spec.xnArr (V c main_arg0) (((cfg0.win 1).blk t).view.emb (ix2 p q))
  rw [outblock_pos t ht p q]
  exact pay_of_rows (V c main_arg0) (iblk0 V c 0 t) (fun p => ⟨1024 * t.val + p.val, by have := p.isLt; omega⟩)
    (fun p q => inblock_rows V c t ht p q) p q

/-- An index of the output array is in point t's block iff, on each axis, it lies in the block's range. -/
theorem mem_outblock (t : Fin cfg0.N) (i : Cert.Spec.SX.Idx) :
    i ∈ ((cfg0.win 1).blk t).view.set
      ↔ ∀ a : Fin 2, win0_1.index t a * S1024x1024.size a ≤ (i a).val
          ∧ (i a).val < win0_1.index t a * S1024x1024.size a + S1024x1024.size a := by
  show i ∈ ((View.whole main_v0).slice (win0_1.rect t)).set ↔ _
  rw [View.set_slice_whole, Rect.mem_set_unit]
  exact Iff.rfl

/-- The eight blocks tile the array: row r lies in the block of point r / 1024, and every point writes its block back. -/
theorem blocks_cover (i : Cert.Spec.SX.Idx) :
    ∃ t : Fin cfg0.N, (cfg0.win 1).flush t = true ∧ i ∈ ((cfg0.win 1).blk t).view.set := by
  have h0 : (i 0).val < 8192 := (i 0).isLt
  have h1 : (i 1).val < 1024 := (i 1).isLt
  have hN : cfg0.N = 8 := N_0
  obtain ⟨t, ht⟩ : ∃ t : Fin cfg0.N, t.val = (i 0).val / 1024 := ⟨⟨(i 0).val / 1024, by rw [hN]; omega⟩, rfl⟩
  obtain ⟨-, -, e2, e3⟩ := blockIdx t
  refine ⟨t, flush0_1 t, ?_⟩
  rw [mem_outblock]
  intro a
  match a with
  | ⟨0, _⟩ =>
    show win0_1.index t (0 : Fin 2) * 1024 ≤ (i 0).val ∧ (i 0).val < win0_1.index t (0 : Fin 2) * 1024 + 1024
    omega
  | ⟨1, _⟩ =>
    show win0_1.index t (1 : Fin 2) * 1024 ≤ (i 1).val ∧ (i 1).val < win0_1.index t (1 : Fin 2) * 1024 + 1024
    omega

/-- The array the first region leaves: the normalized rows of the input as the region found it. -/
theorem norm_final (c : Dev nD) :
    ((dat0 (F := Ideal) V c).arrAt 1 cfg0.N : Cert.Spec.SX.Idx → EReal) = Cert.Spec.xnArr (V c main_arg0) :=
  (dat0 (F := Ideal) V c).arrAt_eq_of_cover 1 (Cert.Spec.xnArr (V c main_arg0)) (fun t _ => flushed_norm V c t) blocks_cover

end Cert.KernelIdeal.NormValue

end
-- ==== Proof.KernelIdealValue.SpecLaws.lean ====
/-
  The sum laws of the specification: a sum over the rows below a bound (the partial mix is one), as the
  bound runs through the multiples of 512. Rows below 0: nothing. Rows below 512 (k + 1): the rows below
  512 k and the block of 512 rows that starts at 512 k. Rows below 8192: all of them. The extended reals
  are a commutative monoid under addition, which is all a regrouping of a finite sum asks for.
-/
import proofs.«174637_j670014898407_1_alg».proof.Proof.KernelIdealValue.Spec
import Mathlib.Algebra.BigOperators.Group.Finset.Basic
import Mathlib.Data.Finset.Filter
import Mathlib.Data.Fintype.Basic

noncomputable section

namespace Cert.Spec

open Idealize.ShloMosaic Idealize.ShloMosaic.ValueIdx

/-! ## Sums over the indices below a bound, in any commutative monoid -/

section Below

variable {M : Type*} [AddCommMonoid M] {N : ℕ}

/-- No index lies below zero. -/
theorem sum_below_zero (f : Fin N → M) :
    ∑ j ∈ Finset.univ.filter (fun j : Fin N => j.val < 0), f j = 0 := by
  have hnone : Finset.univ.filter (fun j : Fin N => j.val < 0) = ∅ :=
    Finset.filter_eq_empty_iff.mpr fun j _ => Nat.not_lt_zero j.val
  rw [hnone, Finset.sum_empty]

/-- The indices below `a + b` are those below `a` together with the `b` consecutive ones from `a` on. -/
theorem sum_below_add (f : Fin N → M) (a b : ℕ) (hab : a + b ≤ N) :
    ∑ j ∈ Finset.univ.filter (fun j : Fin N => j.val < a + b), f j
      = ∑ j ∈ Finset.univ.filter (fun j : Fin N => j.val < a), f j
        + ∑ j' : Fin b, f ⟨a + j'.val, by omega⟩ := by
  -- the indices below a + b, cut at a
  have hcut : Finset.univ.filter (fun j : Fin N => j.val < a + b)
      = Finset.univ.filter (fun j : Fin N => j.val < a)
        ∪ Finset.univ.filter (fun j : Fin N => a ≤ j.val ∧ j.val < a + b) := by
    ext j
    simp only [Finset.mem_filter, Finset.mem_univ, true_and, Finset.mem_union]
    omega
  have hapart : Disjoint (Finset.univ.filter (fun j : Fin N => j.val < a))
      (Finset.univ.filter (fun j : Fin N => a ≤ j.val ∧ j.val < a + b)) := by
    rw [Finset.disjoint_filter]
    intro j _ hlow hhigh
    omega
  rw [hcut, Finset.sum_union hapart]
  congr 1
  -- the upper part is the image of Fin b under the shift by a
  symm
  refine Finset.sum_bij (fun (j' : Fin b) _ => (⟨a + j'.val, by omega⟩ : Fin N)) ?_ ?_ ?_ ?_
  · intro j' _
    simp only [Finset.mem_filter, Finset.mem_univ, true_and]
    omega
  · intro j₁ _ j₂ _ hsame
    have hval : a + j₁.val = a + j₂.val := congrArg Fin.val hsame
    exact Fin.ext (by omega)
  · intro j hj
    simp only [Finset.mem_filter, Finset.mem_univ, true_and] at hj
    exact ⟨⟨j.val - a, by omega⟩, Finset.mem_univ _, Fin.ext (by show a + (j.val - a) = j.val; omega)⟩
  · intro j' _
    rfl

/-- Every index lies below the size. -/
theorem sum_below_all (f : Fin N → M) :
    ∑ j ∈ Finset.univ.filter (fun j : Fin N => j.val < N), f j = ∑ j : Fin N, f j := by
  rw [Finset.filter_true_of_mem fun j _ => j.isLt]

end Below

/-! ## The three laws of a sum over the rows below a bound -/

/-- Below zero there is no row. -/
theorem sumBelow_zero (f : Fin 8192 → EReal) : sumBelow f 0 = 0 :=
  sum_below_zero f

/-- The rows below 512 (k + 1) are the rows below 512 k and the block of 512 rows that starts at 512 k. -/
theorem sumBelow_step (f : Fin 8192 → EReal) (k : ℕ) (hk : k < 16) :
    sumBelow f (512 * (k + 1)) = sumBelow f (512 * k) + ∑ j' : Fin 512, f ⟨512 * k + j'.val, by omega⟩ := by
  have hnext : 512 * (k + 1) = 512 * k + 512 := Nat.mul_succ 512 k
  rw [hnext]
  exact sum_below_add f (512 * k) 512 (by omega)

/-- Below 8192 lie all the rows. -/
theorem sumBelow_full (f : Fin 8192 → EReal) : sumBelow f 8192 = ∑ j, f j :=
  sum_below_all f

/-! ## The same three laws for the partial mix -/

/-- Before any row block the partial mix is zero. -/
theorem accBelow_zero (x : SX.Idx → EReal) (i : Fin 8192) (d : Fin 1024) : accBelow x i d 0 = 0 :=
  sumBelow_zero (term x i d)

/-- Row block `k` adds its 512 summands to the partial mix. -/
theorem accBelow_step (x : SX.Idx → EReal) (i : Fin 8192) (d : Fin 1024) (k : ℕ) (hk : k < 16) :
    accBelow x i d (512 * (k + 1))
      = accBelow x i d (512 * k) + ∑ j' : Fin 512, term x i d ⟨512 * k + j'.val, by omega⟩ :=
  sumBelow_step (term x i d) k hk

/-- After the sixteen row blocks the partial mix is the whole mix. -/
theorem accBelow_full (x : SX.Idx → EReal) (i : Fin 8192) (d : Fin 1024) : accBelow x i d 8192 = acc x i d :=
  sumBelow_full (term x i d)

end Cert.Spec

end
-- ==== Proof.KernelIdealValue.AttnPayload.lean ====
/-
  The three values the second kernel stores, read at one index, at the extended reals.

  Over the extended reals a narrowing format change and a cast to the same shape do nothing, and a block product
  into the zero array is a plain sum over the contracted axis. So, at row p and column q:
    • the reset value is 0;
    • the update adds to the old accumulator the sum, over the 512 rows j' of the key block, of
        (the inner product of query row p with key row j') times (row j' of the value block at column q);
    • the stored result is the logistic of the accumulator.
-/
import proofs.«174637_j670014898407_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Idealize.ShloMosaic Idealize.ShloMosaic.TcCoe Idealize.ShloMosaic.ValueIdx
open Idealize.SL Idealize.SL.Sem
open Cert.KernelIdeal Cert.KernelIdeal.Gen

/-! ## The similarity product: [1024, 1024] times [1024, 512], contracting the left's axis 1 with the right's axis 0 -/

/-- The left operand's row is the output's row. -/
theorem simL_row (i : S1024x512.Idx) (r : dot_S1024x1024_S1024x512_S1024x512_1_0_0_1_n_n.contr.Idx) :
    (dot_S1024x1024_S1024x512_S1024x512_1_0_0_1_n_n.lhsIdx i r 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl
/-- The left operand's column is the contracted coordinate. -/
theorem simL_col (i : S1024x512.Idx) (r : dot_S1024x1024_S1024x512_S1024x512_1_0_0_1_n_n.contr.Idx) :
    (dot_S1024x1024_S1024x512_S1024x512_1_0_0_1_n_n.lhsIdx i r 1).val = (r ⟨0, by decide⟩).val :=
  dot_S1024x1024_S1024x512_S1024x512_1_0_0_1_n_n.lhsIdx_val_of_single rfl i r
/-- The right operand's row is the contracted coordinate. -/
theorem simR_row (i : S1024x512.Idx) (r : dot_S1024x1024_S1024x512_S1024x512_1_0_0_1_n_n.contr.Idx) :
    (dot_S1024x1024_S1024x512_S1024x512_1_0_0_1_n_n.rhsIdx i r 0).val = (r ⟨0, by decide⟩).val :=
  dot_S1024x1024_S1024x512_S1024x512_1_0_0_1_n_n.rhsIdx_val_of_single rfl i r
/-- The right operand's column is the output's column. -/
theorem simR_col (i : S1024x512.Idx) (r : dot_S1024x1024_S1024x512_S1024x512_1_0_0_1_n_n.contr.Idx) :
    (dot_S1024x1024_S1024x512_S1024x512_1_0_0_1_n_n.rhsIdx i r 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- Into the zero array the similarity product at (p, j') is the inner product of the left's row p with the right's
    column j'. -/
theorem sim_apply (a : FVec Ideal S1024x1024 .bf16) (b : FVec Ideal S1024x512 .bf16) (p : Fin 1024) (j' : Fin 512) :
    matmul dot_S1024x1024_S1024x512_S1024x512_1_0_0_1_n_n none a b (constant (F := Ideal) S1024x512 .f32 0x00000000#32) (ix2 p j')
      = ∑ e : Fin 1024, a (ix2 p e) * b (ix2 e j') := by
  simp only [matmul]
  rw [Ideal.matmul_constant_zero_apply,
    ← Equiv.sum_comp (contrEquiv1 dot_S1024x1024_S1024x512_S1024x512_1_0_0_1_n_n 1024 rfl rfl).symm]
  refine Finset.sum_congr rfl fun e _ => ?_
  have he := contrEquiv1_symm_val dot_S1024x1024_S1024x512_S1024x512_1_0_0_1_n_n 1024 rfl rfl e
  have hl : dot_S1024x1024_S1024x512_S1024x512_1_0_0_1_n_n.lhsIdx (ix2 p j')
      ((contrEquiv1 dot_S1024x1024_S1024x512_S1024x512_1_0_0_1_n_n 1024 rfl rfl).symm e) = ix2 p e :=
    funext fun c => Fin.ext (by
      match c with
      | ⟨0, _⟩ => exact simL_row _ _
      | ⟨1, _⟩ => exact (simL_col _ _).trans he)
  have hr : dot_S1024x1024_S1024x512_S1024x512_1_0_0_1_n_n.rhsIdx (ix2 p j')
      ((contrEquiv1 dot_S1024x1024_S1024x512_S1024x512_1_0_0_1_n_n 1024 rfl rfl).symm e) = ix2 e j' :=
    funext fun c => Fin.ext (by
      match c with
      | ⟨0, _⟩ => exact (simR_row _ _).trans he
      | ⟨1, _⟩ => exact simR_col _ _)
  rw [hl, hr]

/-! ## The mixing product: [1024, 512] times [512, 1024], contracting the left's axis 1 with the right's axis 0 -/

/-- The left operand's row is the output's row. -/
theorem mixL_row (i : S1024x1024.Idx) (r : dot_S1024x512_S512x1024_S1024x1024_1_0_0_1_n_n.contr.Idx) :
    (dot_S1024x512_S512x1024_S1024x1024_1_0_0_1_n_n.lhsIdx i r 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- The left operand's column is the contracted coordinate. -/
theorem mixL_col (i : S1024x1024.Idx) (r : dot_S1024x512_S512x1024_S1024x1024_1_0_0_1_n_n.contr.Idx) :
    (dot_S1024x512_S512x1024_S1024x1024_1_0_0_1_n_n.lhsIdx i r 1).val = (r ⟨0, by decide⟩).val :=
  dot_S1024x512_S512x1024_S1024x1024_1_0_0_1_n_n.lhsIdx_val_of_single rfl i r
/-- The right operand's row is the contracted coordinate. -/
theorem mixR_row (i : S1024x1024.Idx) (r : dot_S1024x512_S512x1024_S1024x1024_1_0_0_1_n_n.contr.Idx) :
    (dot_S1024x512_S512x1024_S1024x1024_1_0_0_1_n_n.rhsIdx i r 0).val = (r ⟨0, by decide⟩).val :=
  dot_S1024x512_S512x1024_S1024x1024_1_0_0_1_n_n.rhsIdx_val_of_single rfl i r
/-- The right operand's column is the output's column. -/
theorem mixR_col (i : S1024x1024.Idx) (r : dot_S1024x512_S512x1024_S1024x1024_1_0_0_1_n_n.contr.Idx) :
    (dot_S1024x512_S512x1024_S1024x1024_1_0_0_1_n_n.rhsIdx i r 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- Into the zero array the mixing product at (p, q) is the sum over the 512 contracted rows j' of the left at (p, j')
    times the right at (j', q). -/
theorem mix_apply (a : FVec Ideal S1024x512 .bf16) (b : FVec Ideal S512x1024 .bf16) (p q : Fin 1024) :
    matmul dot_S1024x512_S512x1024_S1024x1024_1_0_0_1_n_n none a b (constant (F := Ideal) S1024x1024 .f32 0x00000000#32) (ix2 p q)
      = ∑ j' : Fin 512, a (ix2 p j') * b (ix2 j' q) := by
  simp only [matmul]
  rw [Ideal.matmul_constant_zero_apply,
    ← Equiv.sum_comp (contrEquiv1 dot_S1024x512_S512x1024_S1024x1024_1_0_0_1_n_n 512 rfl rfl).symm]
  refine Finset.sum_congr rfl fun j' _ => ?_
  have hj := contrEquiv1_symm_val dot_S1024x512_S512x1024_S1024x1024_1_0_0_1_n_n 512 rfl rfl j'
  have hl : dot_S1024x512_S512x1024_S1024x1024_1_0_0_1_n_n.lhsIdx (ix2 p q)
      ((contrEquiv1 dot_S1024x512_S512x1024_S1024x1024_1_0_0_1_n_n 512 rfl rfl).symm j') = ix2 p j' :=
    funext fun c => Fin.ext (by
      match c with
      | ⟨0, _⟩ => exact mixL_row _ _
      | ⟨1, _⟩ => exact (mixL_col _ _).trans hj)
  have hr : dot_S1024x512_S512x1024_S1024x1024_1_0_0_1_n_n.rhsIdx (ix2 p q)
      ((contrEquiv1 dot_S1024x512_S512x1024_S1024x1024_1_0_0_1_n_n 512 rfl rfl).symm j') = ix2 j' q :=
    funext fun c => Fin.ext (by
      match c with
      | ⟨0, _⟩ => exact (mixR_row _ _).trans hj
      | ⟨1, _⟩ => exact mixR_col _ _)
  rw [hl, hr]

/-! ## The three stored values at an index -/

/-- The reset value is zero everywhere. -/
theorem k1_pay1_apply (p q : Fin 1024) : k1_pay1 (F := Ideal) (ix2 p q) = 0 := by
  unfold k1_pay1
  rw [shapeCast_self]
  show Ideal.ofBits .f32 0x00000000#32 = 0
  exact Ideal.ofBits_zero_f32

/-- The update: the old accumulator plus, over the key block's rows j', the inner product of query row p with key row
    j', times the value block's row j' at column q. -/
theorem k1_pay2_apply (v3 : Vec Ideal S1024x1024 .bf16) (v5 : Vec Ideal S512x1024 .bf16) (v10 : Vec Ideal S512x1024 .f32)
    (v12 : Vec Ideal S1024x1024 .f32) (p q : Fin 1024) :
    k1_pay2 v3 v5 v10 v12 (ix2 p q)
      = v12 (ix2 p q) + ∑ j' : Fin 512, (∑ e : Fin 1024, v3 (ix2 p e) * v5 (ix2 j' e)) * v10 (ix2 j' q) := by
  unfold k1_pay2
  rw [shapeCast_self, shapeCast_self, shapeCast_self, addf_apply, mix_apply]
  refine congrArg (v12 (ix2 p q) + ·) (Finset.sum_congr rfl fun j' _ => ?_)
  rw [truncf_apply, truncf_apply, sim_apply]
  refine congrArg (· * v10 (ix2 j' q)) (Finset.sum_congr rfl fun e _ => ?_)
  rw [transpose_ix2_apply]

/-- The stored result is the logistic of the accumulator. -/
theorem k1_pay3_apply (v21 : Vec Ideal S1024x1024 .f32) (p q : Fin 1024) :
    k1_pay3 v21 (ix2 p q) = Ideal.logistic (v21 (ix2 p q)) := by
  unfold k1_pay3
  rfl

end Cert.KernelIdeal.AttnValue

end
-- ==== Proof.KernelIdealValue.AttnBlocks.lean ====
/-
  The second kernel at the extended reals, point by point: after the grid point (i, k) the accumulator holds, at row p and
  column q of its block, the mix of the rows below 512·(k+1) weighted by their similarity to row 1024·i + p; at the last
  point of a row group the output block holds the logistic of the full mix.

  The road: each case of the body leaves the payloads' values (the reset value, the update of the accumulator, the
  logistic of the updated accumulator), read back from the stores that cover the buffers; a block read at an index is
  the array read at block index × block size + the index inside; the update adds, at (p, q), the 512 summands of this
  point's key rows; and the rows below 512·(k+1) are the rows below 512·k together with those 512. The invariant follows
  by induction on the position of the point, the group's first point starting from the empty sum.
-/
import proofs.«174637_j670014898407_1_alg».proof.Proof.KernelIdealFrame.Attn
import proofs.«174637_j670014898407_1_alg».proof.Proof.KernelIdealValue.Spec
import proofs.«174637_j670014898407_1_alg».proof.Proof.KernelIdealValue.SpecLaws
import proofs.«174637_j670014898407_1_alg».proof.Proof.KernelIdealValue.AttnPayload
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

/-! ## What each case of the body leaves, as values of the payloads -/

section Pieces

variable {F : FTy → Type} [FloatOps F]

/-- The zero offsets of a whole-buffer access. -/
theorem zeroOffsets : (![0, 0] : Fin 2 → Nat) = fun _ => 0 :=
  funext fun a => by match a with | ⟨0, _⟩ => rfl | ⟨1, _⟩ => rfl

/-- Inside a group the accumulator is left at the update of what it held. -/
theorem accB_eq (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : ¬cond1_1 i) (x0 : Vec F S1024x1024 .bf16) (x1 : Vec F S512x1024 .bf16)
    (x2 : Vec F S512x1024 .f32) (xs0 : Vec F S1024x1024 .f32) :
    sout1_B_0 c i arg2 harg2 arg3 harg3 arg4 harg4 arg5 harg5 arg6 harg6 hc0 hc1 x0 x1 x2 xs0 = k1_pay2 x0 x1 x2 xs0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero zeroOffsets]
  simp only [View.readAt_eq_ld, harg2.read_unread, harg3.read_unread, harg4.read_unread, harg6.read_unread,
    View.ld_unit_zero (S := S1024x1024) zeroOffsets, View.ld_unit_zero (S := S512x1024) zeroOffsets]

/-- At a group's first point the accumulator is left at the update of the reset value. -/
theorem accA_eq (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : cond1_0 i) (hc1 : ¬cond1_1 i) (x0 : Vec F S1024x1024 .bf16) (x1 : Vec F S512x1024 .bf16)
    (x2 : Vec F S512x1024 .f32) :
    sout1_A_0 c i arg2 harg2 arg3 harg3 arg4 harg4 arg5 harg5 arg6 harg6 hc0 hc1 x0 x1 x2 = k1_pay2 x0 x1 x2 (k1_pay1 (F := F)) := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S1024x1024) zeroOffsets, View.readCov_unit_zero (S := S1024x1024) _ zeroOffsets]
  simp only [View.readAt_eq_ld, harg2.read_unread, harg3.read_unread, harg4.read_unread,
    View.ld_unit_zero (S := S1024x1024) zeroOffsets, View.ld_unit_zero (S := S512x1024) zeroOffsets]

/-- At a group's last point the accumulator is left at the update of what it held, -/
theorem accC_eq (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16)
    (x2 : Vec F S512x1024 .f32) (xs0 : Vec F S1024x1024 .f32) :
    sout1_C_0 c i arg2 harg2 arg3 harg3 arg4 harg4 arg5 harg5 arg6 harg6 hc0 hc1 x0 x1 x2 xs0 = k1_pay2 x0 x1 x2 xs0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero zeroOffsets]
  simp only [View.readAt_eq_ld, harg2.read_unread, harg3.read_unread, harg4.read_unread, harg6.read_unread,
    View.ld_unit_zero (S := S1024x1024) zeroOffsets, View.ld_unit_zero (S := S512x1024) zeroOffsets]

/-- and the output's buffer at the stored result of that updated accumulator. -/
theorem outC_eq (c : Dev nD) (i : grid1.Coords)
    (arg2 : Memref sig .tc .vmem S1024x1024 .bf16) (harg2 : arg2.IsWhole)
    (arg3 : Memref sig .tc .vmem S512x1024 .bf16) (harg3 : arg3.IsWhole)
    (arg4 : Memref sig .tc .vmem S512x1024 .f32) (harg4 : arg4.IsWhole)
    (arg5 : Memref sig .tc .vmem S1024x1024 .f32) (harg5 : arg5.IsWhole)
    (arg6 : Memref sig .tc .vmem S1024x1024 .f32) (harg6 : arg6.IsWhole)
    (hc0 : ¬cond1_0 i) (hc1 : cond1_1 i) (x0 : Vec F S1024x1024 .bf16) (x1 : Vec F S512x1024 .bf16)
    (x2 : Vec F S512x1024 .f32) (xs0 : Vec F S1024x1024 .f32) :
    out1_C_3 c i arg2 harg2 arg3 harg3 arg4 harg4 arg5 harg5 arg6 harg6 hc0 hc1 x0 x1 x2 xs0 = k1_pay3 (k1_pay2 x0 x1 x2 xs0) := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero zeroOffsets]
  simp only [View.readAt_eq_ld, harg2.read_unread, harg3.read_unread, harg4.read_unread, harg6.read_unread,
    View.readCov_unit_zero (S := S1024x1024) _ zeroOffsets,
    View.ld_unit_zero (S := S1024x1024) zeroOffsets, View.ld_unit_zero (S := S512x1024) zeroOffsets]

end Pieces

variable (V : (c : Dev nD) → (b : Ref sig .tc) → Buf (Elt Ideal) ((c : Thread nD τ).loc b))

/-- The normalized array as the second region finds it, and the input. -/
abbrev aArr (c : Dev nD) : Cert.Spec.SX.Idx → EReal := V c main_v0
abbrev xArr (c : Dev nD) : Cert.Spec.SX.Idx → EReal := V c main_arg0

/-- The array row that row p of the output block at point t is. -/
def rowOf (t : Fin cfg1.N) (p : Fin 1024) : Fin 8192 :=
  ⟨1024 * (t.val / 16) + p.val, by have := t.isLt; have : cfg1.N = 128 := N_1; have := p.isLt; omega⟩

/-! ## The input blocks at a point, read off the arrays -/

/-- The array row that row j' of the key block, and of the value block, at point t is. -/
def keyRow (t : Fin cfg1.N) (j' : Fin 512) : Fin 8192 :=
  ⟨512 * (t.val % 16) + j'.val, by have := j'.isLt; omega⟩

/-- The three input blocks at a point, at their literal shapes. -/
abbrev qblk (c : Dev nD) (t : Fin cfg1.N) : Vec Ideal S1024x1024 .bf16 := iblk1 V c 0 t
abbrev kblk (c : Dev nD) (t : Fin cfg1.N) : Vec Ideal S512x1024 .bf16 := iblk1 V c 1 t
abbrev xblk (c : Dev nD) (t : Fin cfg1.N) : Vec Ideal S512x1024 .f32 := iblk1 V c 2 t

/-- The block indices of the three input windows at a point: the query window follows the outer grid coordinate, the
    key and value windows the inner one; none moves along the columns. -/
theorem qwin_index : ∀ t : Fin cfg1.N, win1_0.index t 0 = t.val / 16 ∧ win1_0.index t 1 = 0 :=
  (by decide +kernel : ∀ t : Fin grid1.N, win1_0.index t 0 = t.val / 16 ∧ win1_0.index t 1 = 0)
theorem kwin_index : ∀ t : Fin cfg1.N, win1_1.index t 0 = t.val % 16 ∧ win1_1.index t 1 = 0 :=
  (by decide +kernel : ∀ t : Fin grid1.N, win1_1.index t 0 = t.val % 16 ∧ win1_1.index t 1 = 0)
theorem xwin_index : ∀ t : Fin cfg1.N, win1_2.index t 0 = t.val % 16 ∧ win1_2.index t 1 = 0 :=
  (by decide +kernel : ∀ t : Fin grid1.N, win1_2.index t 0 = t.val % 16 ∧ win1_2.index t 1 = 0)

/-- A block's coordinate in the array is the block index times the block size plus the coordinate inside: the query
    block's row p is the array's row 1024 (t / 16) + p. -/
theorem qblk_apply (c : Dev nD) (t : Fin cfg1.N) (p e : Fin 1024) :
    qblk V c t (ix2 p e) = aArr V c (ix2 (rowOf t p) e) := by
  have hi := qwin_index t
  show iblk1 V c 0 t (ix2 p e) = V c main_v0 (ix2 (rowOf t p) e)
  unfold iblk1
  rw [View.read_apply]
  show V c main_v0 _ = V c main_v0 _
  congr 1
  funext a
  apply Fin.ext
  match a with
  | ⟨0, _⟩ => show win1_0.index t 0 * 1024 + 1 * p.val = 1024 * (t.val / 16) + p.val; rw [hi.1]; omega
  | ⟨1, _⟩ => show win1_0.index t 1 * 1024 + 1 * e.val = e.val; rw [hi.2]; omega

/-- The key block's row j' is the array's row 512 (t % 16) + j'. -/
theorem kblk_apply (c : Dev nD) (t : Fin cfg1.N) (j' : Fin 512) (e : Fin 1024) :
    kblk V c t (ix2 j' e) = aArr V c (ix2 (keyRow t j') e) := by
  have hi := kwin_index t
  show iblk1 V c 1 t (ix2 j' e) = V c main_v0 (ix2 (keyRow t j') e)
  unfold iblk1
  rw [View.read_apply]
  show V c main_v0 _ = V c main_v0 _
  congr 1
  funext a
  apply Fin.ext
  match a with
  | ⟨0, _⟩ => show win1_1.index t 0 * 512 + 1 * j'.val = 512 * (t.val % 16) + j'.val; rw [hi.1]; omega
  | ⟨1, _⟩ => show win1_1.index t 1 * 1024 + 1 * e.val = e.val; rw [hi.2]; omega

/-- The value block's row j' is the input's row 512 (t % 16) + j'. -/
theorem xblk_apply (c : Dev nD) (t : Fin cfg1.N) (j' : Fin 512) (q : Fin 1024) :
    xblk V c t (ix2 j' q) = xArr V c (ix2 (keyRow t j') q) := by
  have hi := xwin_index t
  show iblk1 V c 2 t (ix2 j' q) = V c main_arg0 (ix2 (keyRow t j') q)
  unfold iblk1
  rw [View.read_apply]
  show V c main_arg0 _ = V c main_arg0 _
  congr 1
  funext a
  apply Fin.ext
  match a with
  | ⟨0, _⟩ => show win1_2.index t 0 * 512 + 1 * j'.val = 512 * (t.val % 16) + j'.val; rw [hi.1]; omega
  | ⟨1, _⟩ => show win1_2.index t 1 * 1024 + 1 * q.val = q.val; rw [hi.2]; omega

/-! ## One point of the accumulation, in the specification's words -/

/-- The update at point t over any accumulator: at (p, q) it adds the summands of the 512 rows of this point's key
    block to what the accumulator held. -/
theorem upd_apply (c : Dev nD) (t : Fin cfg1.N) (prev : Vec Ideal S1024x1024 .f32) (p q : Fin 1024) :
    k1_pay2 (qblk V c t) (kblk V c t) (xblk V c t) prev (ix2 p q)
      = prev (ix2 p q) + ∑ j' : Fin 512, Cert.Spec.termOf (aArr V c) (xArr V c) (rowOf t p) q (keyRow t j') := by
  refine (k1_pay2_apply (qblk V c t) (kblk V c t) (xblk V c t) prev p q).trans ?_
  refine congrArg (prev (ix2 p q) + ·) (Finset.sum_congr rfl fun j' _ => ?_)
  unfold Cert.Spec.termOf Cert.Spec.simOf
  rw [xblk_apply V c t j' q]
  refine congrArg (· * xArr V c (ix2 (keyRow t j') q)) (Finset.sum_congr rfl fun e _ => ?_)
  rw [qblk_apply V c t p e, kblk_apply V c t j' e]

/-- The rows below 512 (t % 16 + 1) are the rows below 512 (t % 16) and this point's key block. -/
theorem below_next (f : Fin 8192 → EReal) (t : Fin cfg1.N) :
    Cert.Spec.sumBelow f (512 * (t.val % 16 + 1))
      = Cert.Spec.sumBelow f (512 * (t.val % 16)) + ∑ j' : Fin 512, f (keyRow t j') :=
  Cert.Spec.sumBelow_step f (t.val % 16) (Nat.mod_lt _ (by decide))

/-! ## The invariant of the accumulation -/

/-- At a group's first point: the reset value is zero and no row lies below 512 · 0. -/
theorem acc_first (c : Dev nD) (t : Fin cfg1.N) (h0 : t.val % 16 = 0) (p q : Fin 1024) :
    (outsAt1 (F := Ideal) V c t.val t.isLt).2 (ix2 p q)
      = Cert.Spec.sumBelow (Cert.Spec.termOf (aArr V c) (xArr V c) (rowOf t p) q) (512 * (t.val % 16 + 1)) := by
  have h1 : ¬t.val % 16 = 15 := by omega
  rw [outsAt1_A V c t h0 h1]
  dsimp only
  refine (congrFun (accA_eq (F := Ideal) c (grid1.coords t) (ms1_0 t) (hs1_0 t) (ms1_1 t) (hs1_1 t) (ms1_2 t) (hs1_2 t)
    (ms1_3 t) (hs1_3 t) scM1_0 (Memref.isWhole_whole _) ((hcond1_0 t).mpr h0) (fun h => h1 ((hcond1_1 t).mp h))
    (iblk1 V c 0 t) (iblk1 V c 1 t) (iblk1 V c 2 t)) (ix2 p q)).trans ?_
  refine (upd_apply V c t (k1_pay1 (F := Ideal)) p q).trans ?_
  rw [below_next, k1_pay1_apply]
  have hnone : 512 * (t.val % 16) = 0 := by omega
  rw [hnone, Cert.Spec.sumBelow_zero]

/-- At any later point of a group: the update of what the point before left, which held the rows below
    512 (t % 16) of the same output rows. -/
theorem acc_next (c : Dev nD) (t : Fin cfg1.N) (h0 : ¬t.val % 16 = 0) (p q : Fin 1024)
    (hprev : (outsAt1 (F := Ideal) V c (t.val - 1) (Nat.lt_of_le_of_lt (Nat.sub_le _ _) t.isLt)).2 (ix2 p q)
      = Cert.Spec.sumBelow (Cert.Spec.termOf (aArr V c) (xArr V c) (rowOf t p) q) (512 * (t.val % 16))) :
    (outsAt1 (F := Ideal) V c t.val t.isLt).2 (ix2 p q)
      = Cert.Spec.sumBelow (Cert.Spec.termOf (aArr V c) (xArr V c) (rowOf t p) q) (512 * (t.val % 16 + 1)) := by
  by_cases h1 : t.val % 16 = 15
  · rw [outsAt1_C V c t h0 h1]
    dsimp only
    refine (congrFun (accC_eq (F := Ideal) c (grid1.coords t) (ms1_0 t) (hs1_0 t) (ms1_1 t) (hs1_1 t) (ms1_2 t) (hs1_2 t)
      (ms1_3 t) (hs1_3 t) scM1_0 (Memref.isWhole_whole _) (fun h => h0 ((hcond1_0 t).mp h)) ((hcond1_1 t).mpr h1)
      (iblk1 V c 0 t) (iblk1 V c 1 t) (iblk1 V c 2 t)
      (outsAt1 V c (t.val - 1) (Nat.lt_of_le_of_lt (Nat.sub_le _ _) t.isLt)).2) (ix2 p q)).trans ?_
    refine (upd_apply V c t _ p q).trans ?_
    rw [below_next, hprev]
  · rw [outsAt1_B V c t h0 h1]
    dsimp only
    refine (congrFun (accB_eq (F := Ideal) c (grid1.coords t) (ms1_0 t) (hs1_0 t) (ms1_1 t) (hs1_1 t) (ms1_2 t) (hs1_2 t)
      (ms1_3 t) (hs1_3 t) scM1_0 (Memref.isWhole_whole _) (fun h => h0 ((hcond1_0 t).mp h)) (fun h => h1 ((hcond1_1 t).mp h))
      (iblk1 V c 0 t) (iblk1 V c 1 t) (iblk1 V c 2 t)
      (outsAt1 V c (t.val - 1) (Nat.lt_of_le_of_lt (Nat.sub_le _ _) t.isLt)).2) (ix2 p q)).trans ?_
    refine (upd_apply V c t _ p q).trans ?_
    rw [below_next, hprev]

/-- The invariant, by induction on the position of the point. -/
theorem acc_inv_at (c : Dev nD) : ∀ (n : ℕ) (t : Fin cfg1.N), t.val = n → ∀ p q : Fin 1024,
    (outsAt1 (F := Ideal) V c t.val t.isLt).2 (ix2 p q)
      = Cert.Spec.sumBelow (Cert.Spec.termOf (aArr V c) (xArr V c) (rowOf t p) q) (512 * (t.val % 16 + 1)) := by
  intro n
  induction n with
  | zero =>
    intro t ht p q
    exact acc_first V c t (by omega) p q
  | succ n ih =>
    intro t ht p q
    by_cases h0 : t.val % 16 = 0
    · exact acc_first V c t h0 p q
    · refine acc_next V c t h0 p q ?_
      -- the point before lies in the same group: the same output rows, one key block fewer
      have hlt : t.val - 1 < cfg1.N := Nat.lt_of_le_of_lt (Nat.sub_le _ _) t.isLt
      have hbefore := ih ⟨t.val - 1, hlt⟩ (by show t.val - 1 = n; omega) p q
      have hrow : rowOf ⟨t.val - 1, hlt⟩ p = rowOf t p := Fin.ext (by show 1024 * ((t.val - 1) / 16) + p.val = 1024 * (t.val / 16) + p.val; omega)
      have hcount : 512 * ((t.val - 1) % 16 + 1) = 512 * (t.val % 16) := by omega
      rw [hrow] at hbefore
      exact hbefore.trans (congrArg _ hcount)

/-- After point t the accumulator holds the mix of the rows below 512 · (t % 16 + 1). -/
theorem acc_inv (c : Dev nD) (t : Fin cfg1.N) (p q : Fin 1024) :
    (outsAt1 (F := Ideal) V c t.val t.isLt).2 (ix2 p q)
      = Cert.Spec.sumBelow (Cert.Spec.termOf (aArr V c) (xArr V c) (rowOf t p) q) (512 * (t.val % 16 + 1)) :=
  acc_inv_at V c t.val t rfl p q

/-- At the last point of a row group the output block holds the logistic of the full mix. -/
theorem out_last (c : Dev nD) (t : Fin cfg1.N) (h : t.val % 16 = 15) (p q : Fin 1024) :
    (outsAt1 (F := Ideal) V c t.val t.isLt).1 (ix2 p q)
      = Ideal.logistic (Cert.Spec.accOf (aArr V c) (xArr V c) (rowOf t p) q) := by
  have h0 : ¬t.val % 16 = 0 := by omega
  have hacc := acc_inv V c t p q
  rw [outsAt1_C V c t h0 h] at hacc ⊢
  dsimp only at hacc ⊢
  refine (congrFun (outC_eq (F := Ideal) c (grid1.coords t) (ms1_0 t) (hs1_0 t) (ms1_1 t) (hs1_1 t) (ms1_2 t) (hs1_2 t)
    (ms1_3 t) (hs1_3 t) scM1_0 (Memref.isWhole_whole _) (fun h' => h0 ((hcond1_0 t).mp h')) ((hcond1_1 t).mpr h)
    (iblk1 V c 0 t) (iblk1 V c 1 t) (iblk1 V c 2 t)
    (outsAt1 V c (t.val - 1) (Nat.lt_of_le_of_lt (Nat.sub_le _ _) t.isLt)).2) (ix2 p q)).trans ?_
  refine (k1_pay3_apply _ p q).trans (congrArg Ideal.logistic ?_)
  have hsame := congrFun (accC_eq (F := Ideal) c (grid1.coords t) (ms1_0 t) (hs1_0 t) (ms1_1 t) (hs1_1 t) (ms1_2 t) (hs1_2 t)
    (ms1_3 t) (hs1_3 t) scM1_0 (Memref.isWhole_whole _) (fun h' => h0 ((hcond1_0 t).mp h')) ((hcond1_1 t).mpr h)
    (iblk1 V c 0 t) (iblk1 V c 1 t) (iblk1 V c 2 t)
    (outsAt1 V c (t.val - 1) (Nat.lt_of_le_of_lt (Nat.sub_le _ _) t.isLt)).2) (ix2 p q)
  have hall : 512 * (t.val % 16 + 1) = 8192 := by omega
  refine (hsame.symm.trans hacc).trans ?_
  rw [hall, Cert.Spec.sumBelow_full]
  rfl

end Cert.KernelIdeal.AttnValue

end
-- ==== Proof.KernelIdealValue.AttnFinal.lean ====
/-
  From the output blocks to the whole result array of the second kernel.

  The grid has 8 × 16 points; point t is (t / 16, t % 16). The output array has 8192 rows of 1024 entries and is cut into
  eight blocks of 1024 rows; the block of point t is block row t / 16 (block column 0), and it is written back only at the
  last point of each row group, t % 16 = 15. There the block holds, at (p, q), the logistic of the full mix for array row
  1024 · (t / 16) + p and column q. An element (p, q) of block row b sits in the array at row b · 1024 + p, column q, so
  what is written back is exactly that block of the specification's function; and array row r lies in the block written
  back at the point 16 · (r / 1024) + 15. The eight blocks therefore tile the array, and the array after the region is the
  specification's function of the normalized array and the input.
-/
import proofs.«174637_j670014898407_1_alg».proof.Proof.KernelIdealValue.AttnBlocks
import proofs.«174637_j670014898407_1_alg».proof.Proof.KernelIdealValue.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttnValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-- Where the output window's block sits at each grid point: block row `t / 16`, block column `0`. -/
theorem out_block_index : ∀ t : Fin cfg1.N, win1_3.index t (0 : Fin 2) = t.val / 16 ∧ win1_3.index t (1 : Fin 2) = 0 :=
  (by decide +kernel : ∀ t : Fin grid1.N, _)

/-- An array index lies in the block of point `t` iff each coordinate lies in the block's range on its axis. -/
theorem mem_out_block (t : Fin cfg1.N) (i : S8192x1024.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v1).slice (win1_3.rect t)).set ↔ _
  rw [View.set_slice_whole, Rect.mem_set_unit]
  exact Iff.rfl

/-- The output block at the last point of a row group, read at any index of the block. -/
theorem out_block_at (c : Dev nD) (t : Fin cfg1.N) (h : t.val % 16 = 15) (j : S1024x1024.Idx) :
    (outsAt1 (F := Ideal) V c t.val t.isLt).1 j
      = Ideal.logistic (Cert.Spec.accOf (aArr V c) (xArr V c) (rowOf t (j 0)) (j 1)) := by
  exact (congrArg (outsAt1 (F := Ideal) V c t.val t.isLt).1 (eq_ix2 j)).trans (out_last V c t h (j 0) (j 1))

/-- What a point that writes back writes is its block of the specification's function: the block's element `(p, q)` is the
    array's element at row `1024 · (t / 16) + p`, column `q`. -/
theorem flushed_out (c : Dev nD) (t : Fin cfg1.N) (hf : (cfg1.win 3).flush t = true) :
    (dat1 (F := Ideal) V c).flushed 3 t
      = ((cfg1.win 3).blk t).view.read (Elt Ideal) (Cert.Spec.GOf (aArr V c) (xArr V c)) := by
  have h15 : t.val % 16 = 15 := (flush1_3 t).mp hf
  show (cfg1.win 3).cut (grid1.coords t) ((dat1 V c).after 3 t) = _
  rw [after1_3]
  obtain ⟨e0, e1⟩ := out_block_index t
  funext j
  rw [View.read_apply]
  refine (out_block_at V c t h15 _).trans ?_
  show _ = Ideal.logistic (Cert.Spec.accOf (aArr V c) (xArr V c) ((((cfg1.win 3).blk t).view.emb j) 0) ((((cfg1.win 3).blk t).view.emb j) 1))
  have hr : rowOf t (((cfg1.win 3).xinj (grid1.coords t) j) 0) = (((cfg1.win 3).blk t).view.emb j) 0 := by
    apply Fin.ext
    show 1024 * (t.val / 16) + (j 0).val = win1_3.index t (0 : Fin 2) * 1024 + 1 * (j 0).val
    rw [e0]; omega
  have hc : ((cfg1.win 3).xinj (grid1.coords t) j) 1 = (((cfg1.win 3).blk t).view.emb j) 1 := by
    apply Fin.ext
    show (j 1).val = win1_3.index t (1 : Fin 2) * 1024 + 1 * (j 1).val
    rw [e1]; omega
  rw [hr, hc]

/-- Every index of the array lies in the block written back at the last point of its row group: row `r` belongs to
    group `r / 1024`, whose last point is `16 · (r / 1024) + 15`. -/
theorem out_cover (i : S8192x1024.Idx) :
    ∃ t : Fin cfg1.N, (cfg1.win 3).flush t = true ∧ i ∈ ((cfg1.win 3).blk t).view.set := by
  have hi0 : (i 0).val < 8192 := (i 0).isLt
  have hi1 : (i 1).val < 1024 := (i 1).isLt
  have hN : cfg1.N = 128 := N_1
  obtain ⟨t, ht⟩ : ∃ t : Fin cfg1.N, t.val = 16 * ((i 0).val / 1024) + 15 := ⟨⟨_, by omega⟩, rfl⟩
  refine ⟨t, (flush1_3 t).mpr (by omega), ?_⟩
  rw [mem_out_block]
  obtain ⟨e0, e1⟩ := out_block_index t
  intro a
  match a with
  | ⟨0, _⟩ =>
    show win1_3.index t (0 : Fin 2) * 1024 ≤ (i 0).val ∧ (i 0).val < win1_3.index t (0 : Fin 2) * 1024 + 1024
    rw [e0, ht]; omega
  | ⟨1, _⟩ =>
    show win1_3.index t (1 : Fin 2) * 1024 ≤ (i 1).val ∧ (i 1).val < win1_3.index t (1 : Fin 2) * 1024 + 1024
    rw [e1]; omega

/-- The result array after the second region. -/
theorem attn_final (c : Dev nD) :
    ((dat1 (F := Ideal) V c).arrAt 3 cfg1.N : Cert.Spec.SX.Idx → EReal) = Cert.Spec.GOf (aArr V c) (xArr V c) :=
  (dat1 (F := Ideal) V c).arrAt_eq_of_cover 3 (Cert.Spec.GOf (aArr V c) (xArr V c)) (flushed_out V c) out_cover

end Cert.KernelIdeal.AttnValue

end
-- ==== Proof.KernelIdealValue.Result.lean ====
/-
  The idealized kernel's result. The second region computes, from the normalized array and the input, the logistic of the
  similarity-weighted mix; the normalized array it reads is what the first region wrote, the rows of the input over their
  clamped lengths; the input reaches both regions as launched. So the result array is the specification's function of
  the first argument.
-/
import proofs.«174637_j670014898407_1_alg».proof.Proof.KernelIdealFrame.Segments
import proofs.«174637_j670014898407_1_alg».proof.Proof.KernelIdealValue.NormValue
import proofs.«174637_j670014898407_1_alg».proof.Proof.KernelIdealValue.AttnFinal

set_option maxRecDepth 16384

noncomputable section

namespace Cert.KernelIdeal.Result

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

open Cert.KernelIdeal.NormValue Cert.KernelIdeal.AttnValue

variable (m : (ℓ : Loc nD τ sig) → Buf (Elt Ideal) ℓ) (ρ : Dev nD → PrngReg)

/-- The normalized array as the second region finds it is the normalized rows of the launched input. -/
theorem mid_eq (c : Dev nD) : aArr (E1 m) c = Cert.Spec.xnArr (m ((c.tc : Thread nD τ).loc main_arg0)) :=
  (W1_v0 m c).trans (norm_final (E0 m) c)

/-- The input as the second region finds it is the launched input. -/
theorem x_eq (c : Dev nD) : xArr (E1 m) c = m ((c.tc : Thread nD τ).loc main_arg0) :=
  W1_of_ne m c main_arg0 (by decide)

/-- What the second region leaves in the result array is the specification's function of the launched input. -/
theorem fin_eq (c : Dev nD) :
    (fin (F := Ideal) m c : Cert.Spec.SX.Idx → EReal) = Cert.Spec.G (m ((c.tc : Thread nD τ).loc main_arg0)) := by
  rw [Cert.Spec.G_eq_GOf]
  refine (attn_final (E1 m) c).trans ?_
  rw [mid_eq m c, x_eq m c]

/-- The idealized kernel's run: it ends with the result array at the specification's function of the first argument and
    both arguments as launched. -/
theorem value_run : θ_run defs (onTc (τ := τ) (main (F := Ideal))) ⟨m, fun _ => 0, ρ⟩ (fun r => ∀ c : Dev nD,
      r.2.mem ((c.tc : Thread nD τ).loc main_v1) = Cert.Spec.G (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (fin_eq m c), (h c).2⟩) (run_all m ρ)

end Cert.KernelIdeal.Result

end
-- ==== Proof.KernelIdealValue.RefValue.lean ====
/-
  The reference program's result is the specification's function of its first argument.

  The reference computes, operation by operation: the entrywise square, each row's sum of squares, its
  square root, the larger of that and the literal ε, the quotient of every entry by its row's clamped length,
  the products of the normalized rows with each other, the product of that square matrix with the input, and
  the logistic of the result spelled as 1 / (1 + exp (−·)). Each stage is read here at an index built from
  its literal coordinates and found equal to the specification's function of the same name.
-/
import proofs.«174637_j670014898407_1_alg».proof.Proof.Gen.ReferenceIdeal.Run
import proofs.«174637_j670014898407_1_alg».proof.Proof.Gen.ReferenceIdeal.Read
import proofs.«174637_j670014898407_1_alg».proof.Proof.KernelIdealValue.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Idealize.ShloMosaic Idealize.ShloMosaic.TcCoe Idealize.SL.Sem
open Idealize.ShloMosaic.ValueIdx
open Cert.ReferenceIdeal Cert.ReferenceIdeal.Read

/-- The input matrix: 8192 rows of 1024 extended reals. -/
abbrev Mat : Type := (⟨S8192x1024, .f32⟩ : BufTy).Contents (Elt Ideal)

/-! ## Where each layout operation reads: the composed index functions at literal coordinates -/

/-- The row sum reads row `r` at column `k`. -/
theorem at_rowsum (r : Fin 8192) (k : Fin 1024) : idx_main_v1 (ix1 r) k = ix2 r k :=
  funext fun a => Fin.ext (by match a with | ⟨0, _⟩ => rfl | ⟨1, _⟩ => rfl)

/-- The column of row sums, read at row `r`, is the vector of row sums at `r`. -/
theorem at_column (r : Fin 8192) (c : Fin 1) : idx_main_v2 (ix2 r c) = ix1 r :=
  funext fun a => Fin.ext (by match a with | ⟨0, _⟩ => rfl)

/-- The column of clamped lengths spread over the matrix: entry `(r, e)` reads row `r` of the column. -/
theorem at_spread (r : Fin 8192) (e : Fin 1024) : idx_main_v6 (ix2 r e) = ix2 r (0 : Fin 1) :=
  funext fun a => Fin.ext (by match a with | ⟨0, _⟩ => rfl | ⟨1, _⟩ => rfl)

/-- The transpose at `(k, j)` reads `(j, k)`. -/
theorem at_transpose (k : Fin 1024) (j : Fin 8192) : idx_main_v8 (ix2 k j) = ix2 j k :=
  funext fun a => Fin.ext (by match a with | ⟨0, _⟩ => rfl | ⟨1, _⟩ => rfl)

/-- The first product's left factor at `(i, j)`, summand `k`: entry `(i, k)`. -/
theorem at_sim_left (i j : Fin 8192) (k : Fin 1024) : lidx_main_v9 (ix2 i j) k = ix2 i k :=
  funext fun a => Fin.ext (by match a with | ⟨0, _⟩ => rfl | ⟨1, _⟩ => rfl)

/-- The first product's right factor at `(i, j)`, summand `k`: entry `(k, j)` of the transpose. -/
theorem at_sim_right (i j : Fin 8192) (k : Fin 1024) : ridx_main_v9 (ix2 i j) k = ix2 k j :=
  funext fun a => Fin.ext (by match a with | ⟨0, _⟩ => rfl | ⟨1, _⟩ => rfl)

/-- The second product's left factor at `(i, d)`, summand `j`: entry `(i, j)` of the similarities. -/
theorem at_mix_left (i : Fin 8192) (d : Fin 1024) (j : Fin 8192) : lidx_main_v10 (ix2 i d) j = ix2 i j :=
  funext fun a => Fin.ext (by match a with | ⟨0, _⟩ => rfl | ⟨1, _⟩ => rfl)

/-- The second product's right factor at `(i, d)`, summand `j`: entry `(j, d)` of the input. -/
theorem at_mix_right (i : Fin 8192) (d : Fin 1024) (j : Fin 8192) : ridx_main_v10 (ix2 i d) j = ix2 j d :=
  funext fun a => Fin.ext (by match a with | ⟨0, _⟩ => rfl | ⟨1, _⟩ => rfl)

/-! ## The two literal words -/

/-- The word of the lower bound on the lengths is the specification's ε: the same word, never evaluated. -/
theorem word_eps : FloatOps.ofBits (F := Ideal) .f32 0x322BCC77#32 = Cert.Spec.eps := rfl

/-- The word 0x3F800000 is the number one. -/
theorem word_one : FloatOps.ofBits (F := Ideal) .f32 0x3F800000#32 = (1 : EReal) := by
  show Ideal.ofBits .f32 0x3F800000#32 = 1
  simp [Ideal.ofBits, Ideal.ieee, -EReal.coe_mul]; norm_num

/-! ## The stages -/

/-- The row sums of the squares are the squared lengths: the sum starts from the zero word. -/
theorem read_ssq (x : Mat) (r : Fin 8192) : val_main_v1 (F := Ideal) x (ix1 r) = Cert.Spec.ssq x r := by
  rw [val_main_v1_apply, val_main_cst_apply, Ideal.ofBits_def, Ideal.ofBits_zero_f32, zero_add]
  unfold Cert.Spec.ssq
  refine Finset.sum_congr rfl fun k _ => ?_
  rw [at_rowsum, val_main_v0_apply, Ideal.mulf_def]

/-- The clamped lengths, as the column the program keeps them in. -/
theorem read_den (x : Mat) (r : Fin 8192) (c : Fin 1) :
    val_main_v5 (F := Ideal) x (ix2 r c) = Cert.Spec.den x r := by
  rw [val_main_v5_apply, val_main_v3_apply, val_main_v2_apply, at_column, read_ssq,
    val_main_v4_apply, val_main_cst_0_apply, word_eps, Ideal.maximumf_def, Ideal.hostUnary_sqrt_def]
  rfl

/-- The normalized rows. -/
theorem read_xn (x : Mat) (r : Fin 8192) (e : Fin 1024) :
    val_main_v7 (F := Ideal) x (ix2 r e) = Cert.Spec.xn x r e := by
  rw [val_main_v7_apply, val_main_v6_apply, at_spread, read_den, Ideal.hostDivf_def]
  rfl

/-- The similarities: the product of the normalized matrix with its own transpose. -/
theorem read_sim (x : Mat) (i j : Fin 8192) :
    val_main_v9 (F := Ideal) x (ix2 i j) = Cert.Spec.sim x i j := by
  rw [val_main_v9_apply]
  unfold Cert.Spec.sim
  refine Finset.sum_congr rfl fun k _ => ?_
  rw [at_sim_left, at_sim_right, val_main_v8_apply, at_transpose, read_xn, read_xn]

/-- The mix: the product of the similarities with the input. -/
theorem read_acc (x : Mat) (i : Fin 8192) (d : Fin 1024) :
    val_main_v10 (F := Ideal) x (ix2 i d) = Cert.Spec.acc x i d := by
  rw [val_main_v10_apply]
  unfold Cert.Spec.acc Cert.Spec.term
  refine Finset.sum_congr rfl fun j _ => ?_
  rw [at_mix_left, at_mix_right, read_sim]

/-! ## The reference is the specification -/

/-- The reference's result, index by index: 1 / (1 + exp (−mix)) is the logistic of the mix. -/
theorem ref_eq (x : (⟨Cert.ReferenceIdeal.S8192x1024, .f32⟩ : BufTy).Contents (Elt Ideal)) :
    Cert.ReferenceIdeal.Read.val_main_v16 (F := Ideal) x = Cert.Spec.G x := by
  funext p
  obtain ⟨i, d, rfl⟩ : ∃ (i : Fin 8192) (d : Fin 1024), p = ix2 i d := ⟨p 0, p 1, eq_ix2 p⟩
  rw [val_main_v16_apply, val_main_v15_apply, val_main_cst_2_apply, val_main_v14_apply, val_main_v13_apply,
    val_main_cst_1_apply, val_main_v12_apply, val_main_v11_apply, read_acc, word_one,
    Ideal.hostDivf_def, Ideal.addf_def, Ideal.hostUnary_exp_def, Ideal.hostNegf_def, Ideal.negf_def]
  rfl

/-! ## The reference's run -/

/-- Every weakly fair execution of the reference ends with its result the specification's function of the first
    argument's contents at the start, and both arguments as they were. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v16) = Cert.Spec.G (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans ((val_main_v16_eq (F := Ideal) _).trans (ref_eq _)), (h c).2⟩)
    (Cert.ReferenceIdeal.Value.run (F := Ideal) m ρ)

end Cert.ReferenceIdeal.RefValue

end
-- ==== Proof.lean ====
/-
  The certificate of the two-kernel cosine-similarity mix against its reference.

  Both programs compute, for an input matrix x of 8192 rows, the logistic of  Σ_j sim[i,j] · x[j,d]  where sim[i,j] is
  the inner product of rows i and j, each divided by its length clamped from below by one literal ε (the same binary32
  word in both programs). The reference forms the whole 8192 × 8192 similarity matrix; the kernel normalizes the rows in
  a first pass and, in a second, accumulates the mix over sixteen blocks of 512 rows per block of 1024 output rows,
  applying the logistic after the last block. Over the extended reals the two are one function: a sum over 8192 rows is
  the sum of its sixteen block sums (addition is commutative and associative there, so no finiteness is needed), a
  matrix product into a zero accumulator is a plain sum, a change of float format is the identity, and the kernel's
  logistic is the reference's 1 / (1 + exp (-·)).

  The frames: each kernel program is two pipelined regions run in sequence (Proof/KernelIdealFrame, and the same text at
  the word-level program's namespace in Proof/KernelFrame); the reference's frame is its run with the result dropped.
  The idealization rewrote nothing, so there is nothing to preserve.
-/
import proofs.«174637_j670014898407_1_alg».proof.Defs
import proofs.«174637_j670014898407_1_alg».proof.Proof.Gen.Kernel
import proofs.«174637_j670014898407_1_alg».proof.Proof.Gen.KernelIdeal
import proofs.«174637_j670014898407_1_alg».proof.Proof.Gen.ReferenceIdeal
import proofs.«174637_j670014898407_1_alg».proof.Proof.Gen.Pre_finite_inputs
import proofs.«174637_j670014898407_1_alg».proof.Proof.KernelFrame.Segments
import proofs.«174637_j670014898407_1_alg».proof.Proof.KernelIdealValue.Result
import proofs.«174637_j670014898407_1_alg».proof.Proof.KernelIdealValue.RefValue

noncomputable section

namespace Cert.Proof

open Idealize.ShloMosaic Idealize.SL.Sem

/-- The word-level kernel runs to the end and keeps its arguments. -/
theorem frame_kernel : Cert.frame_Kernel (hKernel := Cert.Kernel.Gen.facts) (hPre_finite_inputs := Cert.Pre_finite_inputs.Gen.facts) :=
  fun m ρ _ => Cert.Kernel.Hand.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefValue.ref_run m ρ)

/-- From memories that agree on the arguments both idealized programs end with the specification's function of the first
    argument in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)),
    Cert.KernelIdeal.Result.value_run m ρ, ?_⟩
  refine (θ_run Cert.ReferenceIdeal.defs _ _).mono (fun _ h c => ⟨(h c).1.trans ?_, (h c).2⟩)
    (Cert.ReferenceIdeal.RefValue.ref_run m' ρ')
  rw [(hagree c).1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
